-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S200000x112 : Shape := ⟨2, ![200000, 112]⟩
abbrev S1000000x2 : Shape := ⟨2, ![1000000, 2]⟩
abbrev S1000000 : Shape := ⟨1, ![1000000]⟩
abbrev S1000000x16 : Shape := ⟨2, ![1000000, 16]⟩
abbrev S200000 : Shape := ⟨1, ![200000]⟩
abbrev S256x64 : Shape := ⟨2, ![256, 64]⟩
abbrev S64 : Shape := ⟨1, ![64]⟩
abbrev S240x128 : Shape := ⟨2, ![240, 128]⟩
abbrev S128 : Shape := ⟨1, ![128]⟩
abbrev S128x144 : Shape := ⟨2, ![128, 144]⟩
abbrev S144 : Shape := ⟨1, ![144]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S200000x112 : S_.BroadcastsInDim S200000x112 (![] : Fin 0 → Fin S200000x112.rank)
  reducesTo_S200000x112_S_d0_1 : S200000x112.ReducesTo [0, 1] S_
  bcast_S_S1000000x16 : S_.BroadcastsInDim S1000000x16 (![] : Fin 0 → Fin S1000000x16.rank)
  reducesTo_S1000000x16_S_d0_1 : S1000000x16.ReducesTo [0, 1] S_
  bcast_S_S200000 : S_.BroadcastsInDim S200000 (![] : Fin 0 → Fin S200000.rank)
  reducesTo_S200000_S_d0 : S200000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S240x128 : S_.BroadcastsInDim S240x128 (![] : Fin 0 → Fin S240x128.rank)
  reducesTo_S240x128_S_d0_1 : S240x128.ReducesTo [0, 1] S_
  bcast_S_S128 : S_.BroadcastsInDim S128 (![] : Fin 0 → Fin S128.rank)
  reducesTo_S128_S_d0 : S128.ReducesTo [0] S_
  bcast_S_S128x144 : S_.BroadcastsInDim S128x144 (![] : Fin 0 → Fin S128x144.rank)
  reducesTo_S128x144_S_d0_1 : S128x144.ReducesTo [0, 1] S_
  bcast_S_S144 : S_.BroadcastsInDim S144 (![] : Fin 0 → Fin S144.rank)
  reducesTo_S144_S_d0 : S144.ReducesTo [0] S_

variable [Facts]

def fn_part3 {F : FTy → Type} [FloatOps F] (main_arg14 : FVec F S144 .f32) (main_v48 : IVec S_ 1) (main_v49 : FVec F S128x144 .f32) (main_v50 : FVec F S128x144 .f32) : IVec S_ 1 :=
  let main_v51 : IVec S128x144 1 := cmpf .olt main_v49 main_v50
  let main_c_19 : IVec S_ 1 := constantI S_ 1 1#1
  let main_v52 : IVec S_ 1 := (fun x v => Host.reduce IntOp.andi x v reducesTo_S128x144_S_d0_1 h_S_) main_v51 main_c_19
  let main_v53 : IVec S_ 1 := andi main_v48 main_v52
  let main_v54 : FVec F S144 .f32 := Host.absf main_arg14
  let main_cst_20 : FVec F S_ .f32 := constant S_ .f32 0x7F800000#32
  let main_v55 : FVec F S144 .f32 := broadcastInDim S144 ![] bcast_S_S144 main_cst_20
  let main_v56 : IVec S144 1 := cmpf .olt main_v54 main_v55
  let main_c_21 : IVec S_ 1 := constantI S_ 1 1#1
  let main_v57 : IVec S_ 1 := (fun x v => Host.reduce IntOp.andi x v reducesTo_S144_S_d0 h_S_) main_v56 main_c_21
  let main_v58 : IVec S_ 1 := andi main_v53 main_v57
  main_v58

def fn_part2 {F : FTy → Type} [FloatOps F] (main_arg10 : FVec F S64 .f32) (main_arg11 : FVec F S240x128 .f32) (main_arg12 : FVec F S128 .f32) (main_arg13 : FVec F S128x144 .f32) (main_arg14 : FVec F S144 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S240x128 .f32 := Host.absf main_arg11
  let main_cst_14 : FVec F S_ .f32 := constant S_ .f32 0x7F800000#32
  let main_v40 : FVec F S240x128 .f32 := broadcastInDim S240x128 ![] bcast_S_S240x128 main_cst_14
  let main_v41 : IVec S240x128 1 := cmpf .olt main_v39 main_v40
  let main_c_15 : IVec S_ 1 := constantI S_ 1 1#1
  let main_v42 : IVec S_ 1 := (fun x v => Host.reduce IntOp.andi x v reducesTo_S240x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x144 .f32 := Host.absf main_arg13
  let main_cst_18 : FVec F S_ .f32 := constant S_ .f32 0x7F800000#32
  let main_v50 : FVec F S128x144 .f32 := broadcastInDim S128x144 ![] bcast_S_S128x144 main_cst_18
  fn_part3 (F := F) main_arg14 main_v48 main_v49 main_v50

def fn_part1 {F : FTy → Type} [FloatOps F] (main_arg7 : FVec F S256x64 .f32) (main_arg8 : FVec F S64 .f32) (main_arg9 : FVec F S256x64 .f32) (main_arg10 : FVec F S64 .f32) (main_arg11 : FVec F S240x128 .f32) (main_arg12 : FVec F S128 .f32) (main_arg13 : FVec F S128x144 .f32) (main_arg14 : FVec F S144 .f32) (main_v13 : IVec S_ 1) (main_v16 : IVec S200000 1) : IVec S_ 1 :=
  let main_c_5 : IVec S_ 1 := constantI S_ 1 1#1
  let main_v17 : IVec S_ 1 := (fun x v => Host.reduce IntOp.andi x v reducesTo_S200000_S_d0 h_S_) main_v16 main_c_5
  let main_v18 : IVec S_ 1 := andi main_v13 main_v17
  let main_v19 : FVec F S256x64 .f32 := Host.absf main_arg7
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256x64 .f32 := Host.absf main_arg9
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg10 main_arg11 main_arg12 main_arg13 main_arg14 main_v33

def fn {F : FTy → Type} [FloatOps F] (main_arg0 : FVec F S50000x64 .f32) (main_arg1 : FVec F S200000x112 .f32) (main_arg2 : IVec S1000000x2 32) (main_arg3 : IVec S1000000 32) (main_arg4 : FVec F S1000000x16 .f32) (main_arg5 : IVec S1000000 32) (main_arg6 : FVec F S200000 .f32) (main_arg7 : FVec F S256x64 .f32) (main_arg8 : FVec F S64 .f32) (main_arg9 : FVec F S256x64 .f32) (main_arg10 : FVec F S64 .f32) (main_arg11 : FVec F S240x128 .f32) (main_arg12 : FVec F S128 .f32) (main_arg13 : FVec F S128x144 .f32) (main_arg14 : FVec F S144 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S200000x112 .f32 := Host.absf main_arg1
  let main_cst_0 : FVec F S_ .f32 := constant S_ .f32 0x7F800000#32
  let main_v5 : FVec F S200000x112 .f32 := broadcastInDim S200000x112 ![] bcast_S_S200000x112 main_cst_0
  let main_v6 : IVec S200000x112 1 := cmpf .olt main_v4 main_v5
  let main_c_1 : IVec S_ 1 := constantI S_ 1 1#1
  let main_v7 : IVec S_ 1 := (fun x v => Host.reduce IntOp.andi x v reducesTo_S200000x112_S_d0_1 h_S_) main_v6 main_c_1
  let main_v8 : IVec S_ 1 := andi main_v3 main_v7
  let main_v9 : FVec F S1000000x16 .f32 := Host.absf main_arg4
  let main_cst_2 : FVec F S_ .f32 := constant S_ .f32 0x7F800000#32
  let main_v10 : FVec F S1000000x16 .f32 := broadcastInDim S1000000x16 ![] bcast_S_S1000000x16 main_cst_2
  let main_v11 : IVec S1000000x16 1 := cmpf .olt main_v9 main_v10
  let main_c_3 : IVec S_ 1 := constantI S_ 1 1#1
  let main_v12 : IVec S_ 1 := (fun x v => Host.reduce IntOp.andi x v reducesTo_S1000000x16_S_d0_1 h_S_) main_v11 main_c_3
  let main_v13 : IVec S_ 1 := andi main_v8 main_v12
  let main_v14 : FVec F S200000 .f32 := Host.absf main_arg6
  let main_cst_4 : FVec F S_ .f32 := constant S_ .f32 0x7F800000#32
  let main_v15 : FVec F S200000 .f32 := broadcastInDim S200000 ![] bcast_S_S200000 main_cst_4
  let main_v16 : IVec S200000 1 := cmpf .olt main_v14 main_v15
  fn_part1 (F := F) main_arg7 main_arg8 main_arg9 main_arg10 main_arg11 main_arg12 main_arg13 main_arg14 main_v13 main_v16
-- ==== Kernel.lean ====
abbrev S50000x64 : Shape := ⟨2, ![50000, 64]⟩
abbrev S200000x112 : Shape := ⟨2, ![200000, 112]⟩
abbrev S1000000x2 : Shape := ⟨2, ![1000000, 2]⟩
abbrev S1000000 : Shape := ⟨1, ![1000000]⟩
abbrev S1000000x16 : Shape := ⟨2, ![1000000, 16]⟩
abbrev S200000 : Shape := ⟨1, ![200000]⟩
abbrev S256x64 : Shape := ⟨2, ![256, 64]⟩
abbrev S64 : Shape := ⟨1, ![64]⟩
abbrev S240x128 : Shape := ⟨2, ![240, 128]⟩
abbrev S128 : Shape := ⟨1, ![128]⟩
abbrev S128x144 : Shape := ⟨2, ![128, 144]⟩
abbrev S144 : Shape := ⟨1, ![144]⟩
abbrev S1000000x1 : Shape := ⟨2, ![1000000, 1]⟩
abbrev S_ : Shape := ⟨0, ![]⟩
abbrev S1000000x64 : Shape := ⟨2, ![1000000, 64]⟩
abbrev S1000000x128 : Shape := ⟨2, ![1000000, 128]⟩
abbrev S1000000x112 : Shape := ⟨2, ![1000000, 112]⟩
abbrev S1000000x17 : Shape := ⟨2, ![1000000, 17]⟩
abbrev S4000x128 : Shape := ⟨2, ![4000, 128]⟩
abbrev S4000x112 : Shape := ⟨2, ![4000, 112]⟩
abbrev S4000x17 : Shape := ⟨2, ![4000, 17]⟩
abbrev S4000x64 : Shape := ⟨2, ![4000, 64]⟩
abbrev S4000x16 : Shape := ⟨2, ![4000, 16]⟩
abbrev S4000x1 : Shape := ⟨2, ![4000, 1]⟩
abbrev S4000x256 : Shape := ⟨2, ![4000, 256]⟩
abbrev S1x64 : Shape := ⟨2, ![1, 64]⟩
abbrev S400000x64 : Shape := ⟨2, ![400000, 64]⟩
abbrev S200000x2x64 : Shape := ⟨3, ![200000, 2, 64]⟩
abbrev S200000x1x64 : Shape := ⟨3, ![200000, 1, 64]⟩
abbrev S200000x64 : Shape := ⟨2, ![200000, 64]⟩
abbrev S200000x128 : Shape := ⟨2, ![200000, 128]⟩
abbrev S200000x144 : Shape := ⟨2, ![200000, 144]⟩
abbrev S4000x144 : Shape := ⟨2, ![4000, 144]⟩
abbrev S4000x240 : Shape := ⟨2, ![4000, 240]⟩
abbrev S1x128 : Shape := ⟨2, ![1, 128]⟩
abbrev S1x144 : Shape := ⟨2, ![1, 144]⟩

abbrev nBuf : Space → Nat
  | .hbm => 79
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S200000x112, .f32⟩
  | .hbm, ⟨2, _⟩ => ⟨S1000000x2, .i32⟩
  | .hbm, ⟨3, _⟩ => ⟨S1000000, .i32⟩
  | .hbm, ⟨4, _⟩ => ⟨S1000000x16, .f32⟩
  | .hbm, ⟨5, _⟩ => ⟨S1000000, .i32⟩
  | .hbm, ⟨6, _⟩ => ⟨S200000, .f32⟩
  | .hbm, ⟨7, _⟩ => ⟨S256x64, .f32⟩
  | .hbm, ⟨8, _⟩ => ⟨S64, .f32⟩
  | .hbm, ⟨9, _⟩ => ⟨S256x64, .f32⟩
  | .hbm, ⟨10, _⟩ => ⟨S64, .f32⟩
  | .hbm, ⟨11, _⟩ => ⟨S240x128, .f32⟩
  | .hbm, ⟨12, _⟩ => ⟨S128, .f32⟩
  | .hbm, ⟨13, _⟩ => ⟨S128x144, .f32⟩
  | .hbm, ⟨14, _⟩ => ⟨S144, .f32⟩
  | .hbm, ⟨15, _⟩ => ⟨S1000000x1, .i32⟩
  | .hbm, ⟨16, _⟩ => ⟨S1000000, .i32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000x64, .f32⟩
  | .hbm, ⟨26, _⟩ => ⟨S1000000x1, .i32⟩
  | .hbm, ⟨27, _⟩ => ⟨S1000000, .i32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S1000000x64, .f32⟩
  | .hbm, ⟨37, _⟩ => ⟨S1000000x128, .f32⟩
  | .hbm, ⟨38, _⟩ => ⟨S_, .i32⟩
  | .hbm, ⟨39, _⟩ => ⟨S1000000, .i32⟩
  | .hbm, ⟨40, _⟩ => ⟨S1000000, .i1⟩
  | .hbm, ⟨41, _⟩ => ⟨S_, .i32⟩
  | .hbm, ⟨42, _⟩ => ⟨S1000000, .i32⟩
  | .hbm, ⟨43, _⟩ => ⟨S1000000, .i32⟩
  | .hbm, ⟨44, _⟩ => ⟨S1000000, .i32⟩
  | .hbm, ⟨45, _⟩ => ⟨S1000000x1, .i32⟩
  | .hbm, ⟨46, _⟩ => ⟨S1000000x112, .f32⟩
  | .hbm, ⟨47, _⟩ => ⟨S_, .i32⟩
  | .hbm, ⟨48, _⟩ => ⟨S1000000, .i32⟩
  | .hbm, ⟨49, _⟩ => ⟨S1000000, .i1⟩
  | .hbm, ⟨50, _⟩ => ⟨S_, .i32⟩
  | .hbm, ⟨51, _⟩ => ⟨S1000000, .i32⟩
  | .hbm, ⟨52, _⟩ => ⟨S1000000, .i32⟩
  | .hbm, ⟨53, _⟩ => ⟨S1000000, .i32⟩
  | .hbm, ⟨54, _⟩ => ⟨S1000000x1, .i32⟩
  | .hbm, ⟨55, _⟩ => ⟨S1000000, .f32⟩
  | .hbm, ⟨56, _⟩ => ⟨S1000000, .f32⟩
  | .hbm, ⟨57, _⟩ => ⟨S1000000, .f32⟩
  | .hbm, ⟨58, _⟩ => ⟨S_, .f32⟩
  | .hbm, ⟨59, _⟩ => ⟨S1000000, .f32⟩
  | .hbm, ⟨60, _⟩ => ⟨S1000000, .f32⟩
  | .hbm, ⟨61, _⟩ => ⟨S_, .f32⟩
  | .hbm, ⟨62, _⟩ => ⟨S1000000, .f32⟩
  | .hbm, ⟨63, _⟩ => ⟨S1000000, .f32⟩
  | .hbm, ⟨64, _⟩ => ⟨S1000000, .f32⟩
  | .hbm, ⟨65, _⟩ => ⟨S1000000x1, .f32⟩
  | .hbm, ⟨66, _⟩ => ⟨S1000000x17, .f32⟩
  | .hbm, ⟨67, _⟩ => ⟨S1000000x64, .f32⟩
  | .hbm, ⟨68, _⟩ => ⟨S_, .f32⟩
  | .hbm, ⟨69, _⟩ => ⟨S400000x64, .f32⟩
  | .hbm, ⟨70, _⟩ => ⟨S1000000x1, .i32⟩
  | .hbm, ⟨71, _⟩ => ⟨S400000x64, .f32⟩
  | .hbm, ⟨72, _⟩ => ⟨S200000x2x64, .f32⟩
  | .hbm, ⟨73, _⟩ => ⟨S200000x1x64, .f32⟩
  | .hbm, ⟨74, _⟩ => ⟨S200000x64, .f32⟩
  | .hbm, ⟨75, _⟩ => ⟨S200000x1x64, .f32⟩
  | .hbm, ⟨76, _⟩ => ⟨S200000x64, .f32⟩
  | .hbm, ⟨77, _⟩ => ⟨S200000x128, .f32⟩
  | .hbm, ⟨78, _⟩ => ⟨S200000x144, .f32⟩
  | .local _ .vmem, ⟨0, _⟩ => ⟨S4000x128, .f32⟩
  | .local _ .vmem, ⟨1, _⟩ => ⟨S4000x128, .f32⟩
  | .local _ .vmem, ⟨2, _⟩ => ⟨S4000x112, .f32⟩
  | .local _ .vmem, ⟨3, _⟩ => ⟨S4000x112, .f32⟩
  | .local _ .vmem, ⟨4, _⟩ => ⟨S4000x17, .f32⟩
  | .local _ .vmem, ⟨5, _⟩ => ⟨S4000x17, .f32⟩
  | .local _ .vmem, ⟨6, _⟩ => ⟨S256x64, .f32⟩
  | .local _ .vmem, ⟨7, _⟩ => ⟨S64, .f32⟩
  | .local _ .vmem, ⟨8, _⟩ => ⟨S256x64, .f32⟩
  | .local _ .vmem, ⟨9, _⟩ => ⟨S64, .f32⟩
  | .local _ .vmem, ⟨10, _⟩ => ⟨S4000x64, .f32⟩
  | .local _ .vmem, ⟨11, _⟩ => ⟨S4000x64, .f32⟩
  | .local _ .vmem, ⟨12, _⟩ => ⟨S4000x128, .f32⟩
  | .local _ .vmem, ⟨13, _⟩ => ⟨S4000x128, .f32⟩
  | .local _ .vmem, ⟨14, _⟩ => ⟨S4000x112, .f32⟩
  | .local _ .vmem, ⟨15, _⟩ => ⟨S4000x112, .f32⟩
  | .local _ .vmem, ⟨16, _⟩ => ⟨S240x128, .f32⟩
  | .local _ .vmem, ⟨17, _⟩ => ⟨S128, .f32⟩
  | .local _ .vmem, ⟨18, _⟩ => ⟨S128x144, .f32⟩
  | .local _ .vmem, ⟨19, _⟩ => ⟨S144, .f32⟩
  | .local _ .vmem, ⟨20, _⟩ => ⟨S4000x144, .f32⟩
  | .local _ .vmem, ⟨21, _⟩ => ⟨S4000x144, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x112 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x17 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x112 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S240x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x144 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S144 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x144 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S1000000x2_S1000000x1_0_0 : S1000000x2.Slices ![0, 0] S1000000x1
  shapeCasts_S1000000x1_S1000000 : S1000000x1.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S1000000x2_S1000000x1_0_1 : S1000000x2.Slices ![0, 1] S1000000x1
  concatenates_S1000000x64_S1000000x64_S1000000x128_d1 : Shape.Concatenates [S1000000x64, S1000000x64] S1000000x128 1
  concatenates_S1000000x16_S1000000x1_S1000000x17_d1 : Shape.Concatenates [S1000000x16, S1000000x1] S1000000x17 1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x112_S4000x112_0_0 : ∀ a, (![0, 0] : Fin 2 → Nat) a + S4000x112.size a ≤ S4000x112.size a
  h_S4000x112 : 0 < S4000x112.numel
  shapeCasts_S4000x112_S4000x112 : S4000x112.ShapeCasts S4000x112
  inb_S4000x17_S4000x17_0_0 : ∀ a, (![0, 0] : Fin 2 → Nat) a + S4000x17.size a ≤ S4000x17.size a
  h_S4000x17 : 0 < S4000x17.numel
  shapeCasts_S4000x17_S4000x17 : S4000x17.ShapeCasts S4000x17
  slices_S4000x17_o0_0_S4000x16 : S4000x17.Slices ![0, 0] S4000x16
  slices_S4000x17_o0_16_S4000x1 : S4000x17.Slices ![0, 16] S4000x1
  concatenates_S4000x128_S4000x112_S4000x16_S4000x256_d1 : Shape.Concatenates [S4000x128, S4000x112, S4000x16] S4000x256 1
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  bcast_S_S400000x64 : S_.BroadcastsInDim S400000x64 (![] : Fin 0 → Fin S400000x64.rank)
  shapeCasts_S400000x64_S200000x2x64 : S400000x64.ShapeCasts S200000x2x64
  slices_S200000x2x64_S200000x1x64_0_0_0 : S200000x2x64.Slices ![0, 0, 0] S200000x1x64
  shapeCasts_S200000x1x64_S200000x64 : S200000x1x64.ShapeCasts S200000x64
  slices_S200000x2x64_S200000x1x64_0_1_0 : S200000x2x64.Slices ![0, 1, 0] S200000x1x64
  concatenates_S200000x64_S200000x64_S200000x128_d1 : Shape.Concatenates [S200000x64, S200000x64] S200000x128 1
  concatenates_S4000x128_S4000x112_S4000x240_d1 : Shape.Concatenates [S4000x128, S4000x112] S4000x240 1
  inb_S240x128_S240x128_0_0 : ∀ a, (![0, 0] : Fin 2 → Nat) a + S240x128.size a ≤ S240x128.size a
  h_S240x128 : 0 < S240x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x144_S128x144_0_0 : ∀ a, (![0, 0] : Fin 2 → Nat) a + S128x144.size a ≤ S128x144.size a
  h_S128x144 : 0 < S128x144.numel
  inb_S144_S144_0 : ∀ a, (![0] : Fin 1 → Nat) a + S144.size a ≤ S144.size a
  h_S144 : 0 < S144.numel
  shapeCasts_S144_S1x144 : S144.ShapeCasts S1x144
  broadcasts_S1x144_S4000x144 : S1x144.Broadcasts S4000x144
  inb_S4000x144_S4000x144_0_0 : ∀ a, (![0, 0] : Fin 2 → Nat) a + S4000x144.size a ≤ S4000x144.size a
  h_S4000x144 : 0 < S4000x144.numel
  gather_S50000x64_S1000000x1_S1000000x64_1_0_n_n_0_1_164_wf : GatherDims.WF S50000x64 S1000000x1 S1000000x64 [1] [0] [] [0] [] 1 ![1, 64]
  gather_S200000x112_S1000000x1_S1000000x112_1_0_n_n_0_1_1112_wf : GatherDims.WF S200000x112 S1000000x1 S1000000x112 [1] [0] [] [0] [] 1 ![1, 112]
  gather_S200000_S1000000x1_S1000000_n_0_n_n_0_1_1_wf : GatherDims.WF S200000 S1000000x1 S1000000 [] [0] [] [0] [] 1 ![1]
  dot_S4000x256_S256x64_S4000x64_1_0_0_1_n_n_wf : DotDims.WF S4000x256 S256x64 S4000x64 [1] [0] [0] [1] [] []
  scatter_S400000x64_S1000000x1_S1000000x64_1_0_0_1_wf : ScatterDims.WF S400000x64 S1000000x1 S1000000x64 [1] [0] [0] 1
  dot_S4000x240_S240x128_S4000x128_1_0_0_1_n_n_wf : DotDims.WF S4000x240 S240x128 S4000x128 [1] [0] [0] [1] [] []
  dot_S4000x128_S128x144_S4000x144_1_0_0_1_n_n_wf : DotDims.WF S4000x128 S128x144 S4000x144 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S1000000x128.size a
  hwx0_0 : ∀ i : grid0.Coords, EltTy.bits .f32 = 32 ∨ (Rect.block (s := S1000000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x112.size a ≤ S1000000x112.size a
  hwx0_1 : ∀ i : grid0.Coords, EltTy.bits .f32 = 32 ∨ (Rect.block (s := S1000000x112) S4000x112.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x17.size a ≤ S1000000x17.size a
  hwx0_2 : ∀ i : grid0.Coords, EltTy.bits .f32 = 32 ∨ (Rect.block (s := S1000000x17) S4000x17.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .f32 = 32 ∨ (Rect.block (s := S256x64) S256x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x64.size a ≤ S1000000x64.size a
  hwx0_7 : ∀ i : grid0.Coords, EltTy.bits .f32 = 32 ∨ (Rect.block (s := S1000000x64) S4000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S200000x128.size a
  hwx1_0 : ∀ i : grid1.Coords, EltTy.bits .f32 = 32 ∨ (Rect.block (s := S200000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x112.size a ≤ S200000x112.size a
  hwx1_1 : ∀ i : grid1.Coords, EltTy.bits .f32 = 32 ∨ (Rect.block (s := S200000x112) S4000x112.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S240x128.size a ≤ S240x128.size a
  hwx1_2 : ∀ i : grid1.Coords, EltTy.bits .f32 = 32 ∨ (Rect.block (s := S240x128) S240x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x144.size a ≤ S128x144.size a
  hwx1_4 : ∀ i : grid1.Coords, EltTy.bits .f32 = 32 ∨ (Rect.block (s := S128x144) S128x144.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S144.size a ≤ S144.size a
  hwx1_5 : ∀ i : grid1.Coords, EltTy.bits .f32 = 32 ∨ (Rect.block (s := S144) S144.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x144.size a ≤ S200000x144.size a
  hwx1_6 : ∀ i : grid1.Coords, EltTy.bits .f32 = 32 ∨ (Rect.block (s := S200000x144) S4000x144.size (cc1_transform_6 i) (hinb1_6 i)).WholeWords (EltTy.packing .f32)

variable [Facts₀]

def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def gather_S200000x112_S1000000x1_S1000000x112_1_0_n_n_0_1_1112 : GatherDims S200000x112 S1000000x1 S1000000x112 where
  offsetDims := [1]
  collapsedSliceDims := [0]
  operandBatchingDims := []
  startIndicesBatchingDims := []
  startIndexMap := [0]
  indexVectorDim := 1
  sliceSizes := ![1, 112]
  wf := gather_S200000x112_S1000000x1_S1000000x112_1_0_n_n_0_1_1112_wf
def gather_S200000_S1000000x1_S1000000_n_0_n_n_0_1_1 : GatherDims S200000 S1000000x1 S1000000 where
  offsetDims := []
  collapsedSliceDims := [0]
  operandBatchingDims := []
  startIndicesBatchingDims := []
  startIndexMap := [0]
  indexVectorDim := 1
  sliceSizes := ![1]
  wf := gather_S200000_S1000000x1_S1000000_n_0_n_n_0_1_1_wf
def dot_S4000x256_S256x64_S4000x64_1_0_0_1_n_n : DotDims S4000x256 S256x64 S4000x64 where
  lhsContracting := [1]
  rhsContracting := [0]
  lhsNonContracting := [0]
  rhsNonContracting := [1]
  lhsBatch := []
  rhsBatch := []
  wf := dot_S4000x256_S256x64_S4000x64_1_0_0_1_n_n_wf
def scatter_S400000x64_S1000000x1_S1000000x64_1_0_0_1 : ScatterDims S400000x64 S1000000x1 S1000000x64 where
  updateWindowDims := [1]
  insertedWindowDims := [0]
  scatterDimsToOperandDims := [0]
  indexVectorDim := 1
  wf := scatter_S400000x64_S1000000x1_S1000000x64_1_0_0_1_wf
def dot_S4000x240_S240x128_S4000x128_1_0_0_1_n_n : DotDims S4000x240 S240x128 S4000x128 where
  lhsContracting := [1]
  rhsContracting := [0]
  lhsNonContracting := [0]
  rhsNonContracting := [1]
  lhsBatch := []
  rhsBatch := []
  wf := dot_S4000x240_S240x128_S4000x128_1_0_0_1_n_n_wf
def dot_S4000x128_S128x144_S4000x144_1_0_0_1_n_n : DotDims S4000x128 S128x144 S4000x144 where
  lhsContracting := [1]
  rhsContracting := [0]
  lhsNonContracting := [0]
  rhsNonContracting := [1]
  lhsBatch := []
  rhsBatch := []
  wf := dot_S4000x128_S128x144_S4000x144_1_0_0_1_n_n_wf

abbrev win0_0 : Pipeline.Window sig grid0 :=
  Pipeline.Window.ofSpec (Memref.whole main_v18) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S4000x112.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S4000x17.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v42) S4000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v51) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4000x112.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S240x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S128x144.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S144.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v52) S4000x144.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S200000x112 : Shape := ⟨2, ![200000, 112]⟩
abbrev S1000000x2 : Shape := ⟨2, ![1000000, 2]⟩
abbrev S1000000 : Shape := ⟨1, ![1000000]⟩
abbrev S1000000x16 : Shape := ⟨2, ![1000000, 16]⟩
abbrev S200000 : Shape := ⟨1, ![200000]⟩
abbrev S256x64 : Shape := ⟨2, ![256, 64]⟩
abbrev S64 : Shape := ⟨1, ![64]⟩
abbrev S240x128 : Shape := ⟨2, ![240, 128]⟩
abbrev S128 : Shape := ⟨1, ![128]⟩
abbrev S128x144 : Shape := ⟨2, ![128, 144]⟩
abbrev S144 : Shape := ⟨1, ![144]⟩
abbrev S1000000x1 : Shape := ⟨2, ![1000000, 1]⟩
abbrev S_ : Shape := ⟨0, ![]⟩
abbrev S1000000x64 : Shape := ⟨2, ![1000000, 64]⟩
abbrev S1000000x112 : Shape := ⟨2, ![1000000, 112]⟩
abbrev S1000000x256 : Shape := ⟨2, ![1000000, 256]⟩
abbrev S1x64 : Shape := ⟨2, ![1, 64]⟩
abbrev S400000x64 : Shape := ⟨2, ![400000, 64]⟩
abbrev S200000x2x64 : Shape := ⟨3, ![200000, 2, 64]⟩
abbrev S200000x1x64 : Shape := ⟨3, ![200000, 1, 64]⟩
abbrev S200000x64 : Shape := ⟨2, ![200000, 64]⟩
abbrev S200000x240 : Shape := ⟨2, ![200000, 240]⟩
abbrev S200000x128 : Shape := ⟨2, ![200000, 128]⟩
abbrev S1x128 : Shape := ⟨2, ![1, 128]⟩
abbrev S200000x144 : Shape := ⟨2, ![200000, 144]⟩
abbrev S1x144 : Shape := ⟨2, ![1, 144]⟩

abbrev nBuf : Space → Nat
  | .hbm => 126
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S200000x112, .f32⟩
  | .hbm, ⟨2, _⟩ => ⟨S1000000x2, .i32⟩
  | .hbm, ⟨3, _⟩ => ⟨S1000000, .i32⟩
  | .hbm, ⟨4, _⟩ => ⟨S1000000x16, .f32⟩
  | .hbm, ⟨5, _⟩ => ⟨S1000000, .i32⟩
  | .hbm, ⟨6, _⟩ => ⟨S200000, .f32⟩
  | .hbm, ⟨7, _⟩ => ⟨S256x64, .f32⟩
  | .hbm, ⟨8, _⟩ => ⟨S64, .f32⟩
  | .hbm, ⟨9, _⟩ => ⟨S256x64, .f32⟩
  | .hbm, ⟨10, _⟩ => ⟨S64, .f32⟩
  | .hbm, ⟨11, _⟩ => ⟨S240x128, .f32⟩
  | .hbm, ⟨12, _⟩ => ⟨S128, .f32⟩
  | .hbm, ⟨13, _⟩ => ⟨S128x144, .f32⟩
  | .hbm, ⟨14, _⟩ => ⟨S144, .f32⟩
  | .hbm, ⟨15, _⟩ => ⟨S1000000x1, .i32⟩
  | .hbm, ⟨16, _⟩ => ⟨S1000000, .i32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000x64, .f32⟩
  | .hbm, ⟨26, _⟩ => ⟨S1000000x1, .i32⟩
  | .hbm, ⟨27, _⟩ => ⟨S1000000, .i32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S1000000x64, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000x112, .f32⟩
  | .hbm, ⟨46, _⟩ => ⟨S1000000x256, .f32⟩
  | .hbm, ⟨47, _⟩ => ⟨S1000000x64, .f32⟩
  | .hbm, ⟨48, _⟩ => ⟨S1x64, .f32⟩
  | .hbm, ⟨49, _⟩ => ⟨S1000000x64, .f32⟩
  | .hbm, ⟨50, _⟩ => ⟨S1000000x64, .f32⟩
  | .hbm, ⟨51, _⟩ => ⟨S1000000x64, .f32⟩
  | .hbm, ⟨52, _⟩ => ⟨S1000000x64, .f32⟩
  | .hbm, ⟨53, _⟩ => ⟨S_, .f32⟩
  | .hbm, ⟨54, _⟩ => ⟨S1000000x64, .f32⟩
  | .hbm, ⟨55, _⟩ => ⟨S1000000x64, .f32⟩
  | .hbm, ⟨56, _⟩ => ⟨S_, .f32⟩
  | .hbm, ⟨57, _⟩ => ⟨S1000000x64, .f32⟩
  | .hbm, ⟨58, _⟩ => ⟨S1000000x64, .f32⟩
  | .hbm, ⟨59, _⟩ => ⟨S1000000x64, .f32⟩
  | .hbm, ⟨60, _⟩ => ⟨S1x64, .f32⟩
  | .hbm, ⟨61, _⟩ => ⟨S1000000x64, .f32⟩
  | .hbm, ⟨62, _⟩ => ⟨S1000000x64, .f32⟩
  | .hbm, ⟨63, _⟩ => ⟨S_, .f32⟩
  | .hbm, ⟨64, _⟩ => ⟨S1000000x64, .f32⟩
  | .hbm, ⟨65, _⟩ => ⟨S1000000x64, .f32⟩
  | .hbm, ⟨66, _⟩ => ⟨S1000000x64, .f32⟩
  | .hbm, ⟨67, _⟩ => ⟨S1000000x64, .f32⟩
  | .hbm, ⟨68, _⟩ => ⟨S1000000x64, .i1⟩
  | .hbm, ⟨69, _⟩ => ⟨S1000000x64, .f32⟩
  | .hbm, ⟨70, _⟩ => ⟨S1000000x64, .f32⟩
  | .hbm, ⟨71, _⟩ => ⟨S1000000x64, .f32⟩
  | .hbm, ⟨72, _⟩ => ⟨S1000000x64, .f32⟩
  | .hbm, ⟨73, _⟩ => ⟨S1000000x64, .f32⟩
  | .hbm, ⟨74, _⟩ => ⟨S1000000x64, .f32⟩
  | .hbm, ⟨75, _⟩ => ⟨S1000000x64, .f32⟩
  | .hbm, ⟨76, _⟩ => ⟨S1000000x64, .f32⟩
  | .hbm, ⟨77, _⟩ => ⟨S1000000x64, .f32⟩
  | .hbm, ⟨78, _⟩ => ⟨S_, .i32⟩
  | .hbm, ⟨79, _⟩ => ⟨S1000000, .i32⟩
  | .hbm, ⟨80, _⟩ => ⟨S1000000, .i1⟩
  | .hbm, ⟨81, _⟩ => ⟨S_, .i32⟩
  | .hbm, ⟨82, _⟩ => ⟨S1000000, .i32⟩
  | .hbm, ⟨83, _⟩ => ⟨S1000000, .i32⟩
  | .hbm, ⟨84, _⟩ => ⟨S1000000, .i32⟩
  | .hbm, ⟨85, _⟩ => ⟨S1000000x1, .i32⟩
  | .hbm, ⟨86, _⟩ => ⟨S1000000, .f32⟩
  | .hbm, ⟨87, _⟩ => ⟨S1000000, .f32⟩
  | .hbm, ⟨88, _⟩ => ⟨S1000000, .f32⟩
  | .hbm, ⟨89, _⟩ => ⟨S_, .f32⟩
  | .hbm, ⟨90, _⟩ => ⟨S1000000, .f32⟩
  | .hbm, ⟨91, _⟩ => ⟨S1000000, .f32⟩
  | .hbm, ⟨92, _⟩ => ⟨S_, .f32⟩
  | .hbm, ⟨93, _⟩ => ⟨S1000000, .f32⟩
  | .hbm, ⟨94, _⟩ => ⟨S1000000, .f32⟩
  | .hbm, ⟨95, _⟩ => ⟨S1000000, .f32⟩
  | .hbm, ⟨96, _⟩ => ⟨S1000000x1, .f32⟩
  | .hbm, ⟨97, _⟩ => ⟨S1000000x64, .f32⟩
  | .hbm, ⟨98, _⟩ => ⟨S1000000x64, .f32⟩
  | .hbm, ⟨99, _⟩ => ⟨S_, .f32⟩
  | .hbm, ⟨100, _⟩ => ⟨S400000x64, .f32⟩
  | .hbm, ⟨101, _⟩ => ⟨S1000000x1, .i32⟩
  | .hbm, ⟨102, _⟩ => ⟨S400000x64, .f32⟩
  | .hbm, ⟨103, _⟩ => ⟨S200000x2x64, .f32⟩
  | .hbm, ⟨104, _⟩ => ⟨S200000x1x64, .f32⟩
  | .hbm, ⟨105, _⟩ => ⟨S200000x64, .f32⟩
  | .hbm, ⟨106, _⟩ => ⟨S200000x1x64, .f32⟩
  | .hbm, ⟨107, _⟩ => ⟨S200000x64, .f32⟩
  | .hbm, ⟨108, _⟩ => ⟨S200000x240, .f32⟩
  | .hbm, ⟨109, _⟩ => ⟨S200000x128, .f32⟩
  | .hbm, ⟨110, _⟩ => ⟨S1x128, .f32⟩
  | .hbm, ⟨111, _⟩ => ⟨S200000x128, .f32⟩
  | .hbm, ⟨112, _⟩ => ⟨S200000x128, .f32⟩
  | .hbm, ⟨113, _⟩ => ⟨S200000x128, .f32⟩
  | .hbm, ⟨114, _⟩ => ⟨S200000x128, .f32⟩
  | .hbm, ⟨115, _⟩ => ⟨S_, .f32⟩
  | .hbm, ⟨116, _⟩ => ⟨S200000x128, .f32⟩
  | .hbm, ⟨117, _⟩ => ⟨S200000x128, .f32⟩
  | .hbm, ⟨118, _⟩ => ⟨S_, .f32⟩
  | .hbm, ⟨119, _⟩ => ⟨S200000x128, .f32⟩
  | .hbm, ⟨120, _⟩ => ⟨S200000x128, .f32⟩
  | .hbm, ⟨121, _⟩ => ⟨S200000x128, .f32⟩
  | .hbm, ⟨122, _⟩ => ⟨S200000x144, .f32⟩
  | .hbm, ⟨123, _⟩ => ⟨S1x144, .f32⟩
  | .hbm, ⟨124, _⟩ => ⟨S200000x144, .f32⟩
  | .hbm, ⟨125, _⟩ => ⟨S200000x144, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call0_cst : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_v5 : Ref sig .tc := ⟨.hbm, 69, rfl⟩
abbrev main_call0_v6 : Ref sig .tc := ⟨.hbm, 70, rfl⟩
abbrev main_call0_v7 : Ref sig .tc := ⟨.hbm, 71, rfl⟩
abbrev main_call0_v8 : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_v40 : Ref sig .tc := ⟨.hbm, 76, rfl⟩
abbrev main_v41 : Ref sig .tc := ⟨.hbm, 77, rfl⟩
abbrev main_c_6 : Ref sig .tc := ⟨.hbm, 78, rfl⟩
abbrev main_v42 : Ref sig .tc := ⟨.hbm, 79, rfl⟩
abbrev main_v43 : Ref sig .tc := ⟨.hbm, 80, rfl⟩
abbrev main_c_7 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_8 : Ref sig .tc := ⟨.hbm, 89, rfl⟩
abbrev main_v51 : Ref sig .tc := ⟨.hbm, 90, rfl⟩
abbrev main_v52 : Ref sig .tc := ⟨.hbm, 91, rfl⟩
abbrev main_cst_9 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_10 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_call1_v0 : Ref sig .tc := ⟨.hbm, 113, rfl⟩
abbrev main_call1_v1 : Ref sig .tc := ⟨.hbm, 114, rfl⟩
abbrev main_call1_cst : Ref sig .tc := ⟨.hbm, 115, rfl⟩
abbrev main_call1_v2 : Ref sig .tc := ⟨.hbm, 116, rfl⟩
abbrev main_call1_v3 : Ref sig .tc := ⟨.hbm, 117, rfl⟩
abbrev main_call1_cst_0 : Ref sig .tc := ⟨.hbm, 118, rfl⟩
abbrev main_call1_v4 : Ref sig .tc := ⟨.hbm, 119, rfl⟩
abbrev main_call1_v5 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩

abbrev nD : Nat := 1
abbrev τ : Topo := Topo.v7x

variable {F : FTy → Type} [FloatOps F]

class Facts₀ : Prop where
  slices_S1000000x2_S1000000x1_0_0 : S1000000x2.Slices ![0, 0] S1000000x1
  shapeCasts_S1000000x1_S1000000 : S1000000x1.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S1000000x2_S1000000x1_0_1 : S1000000x2.Slices ![0, 1] S1000000x1
  concatenates_S1000000x64_S1000000x64_S1000000x112_S1000000x16_S1000000x256_d1 : Shape.Concatenates [S1000000x64, S1000000x64, S1000000x112, S1000000x16] S1000000x256 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S1000000x1_S1000000x64_0_1 : S1000000x1.BroadcastsInDim S1000000x64 (![0, 1] : Fin 2 → Fin S1000000x64.rank)
  bcast_S_S400000x64 : S_.BroadcastsInDim S400000x64 (![] : Fin 0 → Fin S400000x64.rank)
  shapeCasts_S400000x64_S200000x2x64 : S400000x64.ShapeCasts S200000x2x64
  slices_S200000x2x64_S200000x1x64_0_0_0 : S200000x2x64.Slices ![0, 0, 0] S200000x1x64
  shapeCasts_S200000x1x64_S200000x64 : S200000x1x64.ShapeCasts S200000x64
  slices_S200000x2x64_S200000x1x64_0_1_0 : S200000x2x64.Slices ![0, 1, 0] S200000x1x64
  concatenates_S200000x64_S200000x64_S200000x112_S200000x240_d1 : Shape.Concatenates [S200000x64, S200000x64, S200000x112] S200000x240 1
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S144_S1x144_1 : S144.BroadcastsInDim S1x144 (![1] : Fin 1 → Fin S1x144.rank)
  bcast_S1x144_S200000x144_0_1 : S1x144.BroadcastsInDim S200000x144 (![0, 1] : Fin 2 → Fin S200000x144.rank)
  gather_S50000x64_S1000000x1_S1000000x64_1_0_n_n_0_1_164_wf : GatherDims.WF S50000x64 S1000000x1 S1000000x64 [1] [0] [] [0] [] 1 ![1, 64]
  gather_S200000x112_S1000000x1_S1000000x112_1_0_n_n_0_1_1112_wf : GatherDims.WF S200000x112 S1000000x1 S1000000x112 [1] [0] [] [0] [] 1 ![1, 112]
  dot_S1000000x256_S256x64_S1000000x64_1_0_0_1_n_n_wf : DotDims.WF S1000000x256 S256x64 S1000000x64 [1] [0] [0] [1] [] []
  gather_S200000_S1000000x1_S1000000_n_0_n_n_0_1_1_wf : GatherDims.WF S200000 S1000000x1 S1000000 [] [0] [] [0] [] 1 ![1]
  scatter_S400000x64_S1000000x1_S1000000x64_1_0_0_1_wf : ScatterDims.WF S400000x64 S1000000x1 S1000000x64 [1] [0] [0] 1
  dot_S200000x240_S240x128_S200000x128_1_0_0_1_n_n_wf : DotDims.WF S200000x240 S240x128 S200000x128 [1] [0] [0] [1] [] []
  dot_S200000x128_S128x144_S200000x144_1_0_0_1_n_n_wf : DotDims.WF S200000x128 S128x144 S200000x144 [1] [0] [0] [1] [] []

variable [Facts₀]

def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def gather_S200000x112_S1000000x1_S1000000x112_1_0_n_n_0_1_1112 : GatherDims S200000x112 S1000000x1 S1000000x112 where
  offsetDims := [1]
  collapsedSliceDims := [0]
  operandBatchingDims := []
  startIndicesBatchingDims := []
  startIndexMap := [0]
  indexVectorDim := 1
  sliceSizes := ![1, 112]
  wf := gather_S200000x112_S1000000x1_S1000000x112_1_0_n_n_0_1_1112_wf
def dot_S1000000x256_S256x64_S1000000x64_1_0_0_1_n_n : DotDims S1000000x256 S256x64 S1000000x64 where
  lhsContracting := [1]
  rhsContracting := [0]
  lhsNonContracting := [0]
  rhsNonContracting := [1]
  lhsBatch := []
  rhsBatch := []
  wf := dot_S1000000x256_S256x64_S1000000x64_1_0_0_1_n_n_wf
def gather_S200000_S1000000x1_S1000000_n_0_n_n_0_1_1 : GatherDims S200000 S1000000x1 S1000000 where
  offsetDims := []
  collapsedSliceDims := [0]
  operandBatchingDims := []
  startIndicesBatchingDims := []
  startIndexMap := [0]
  indexVectorDim := 1
  sliceSizes := ![1]
  wf := gather_S200000_S1000000x1_S1000000_n_0_n_n_0_1_1_wf
def scatter_S400000x64_S1000000x1_S1000000x64_1_0_0_1 : ScatterDims S400000x64 S1000000x1 S1000000x64 where
  updateWindowDims := [1]
  insertedWindowDims := [0]
  scatterDimsToOperandDims := [0]
  indexVectorDim := 1
  wf := scatter_S400000x64_S1000000x1_S1000000x64_1_0_0_1_wf
def dot_S200000x240_S240x128_S200000x128_1_0_0_1_n_n : DotDims S200000x240 S240x128 S200000x128 where
  lhsContracting := [1]
  rhsContracting := [0]
  lhsNonContracting := [0]
  rhsNonContracting := [1]
  lhsBatch := []
  rhsBatch := []
  wf := dot_S200000x240_S240x128_S200000x128_1_0_0_1_n_n_wf
def dot_S200000x128_S128x144_S200000x144_1_0_0_1_n_n : DotDims S200000x128 S128x144 S200000x144 where
  lhsContracting := [1]
  rhsContracting := [0]
  lhsNonContracting := [0]
  rhsNonContracting := [1]
  lhsBatch := []
  rhsBatch := []
  wf := dot_S200000x128_S128x144_S200000x144_1_0_0_1_n_n_wf

class Facts : Prop extends Facts₀ where

variable [Facts]
-- ==== Proof.HostK.lean ====
/-
  What the two pallas_calls find in their arrays: the host operations before and between them, read back as functions
  of the launch memory.

  Before the first call the host gathers the two atom rows and the edge row of every sub-edge (a negative index wrapped
  once by the table's length), joins the two atom gathers into 128 columns, and joins the 16 angular features with the
  distance decay exp(−d²/9/2) of the gathered distance as a 17th column. Between the calls it scatter-adds the gated
  messages into 2·200000 slots, and lays the even and the odd slots side by side as 128 columns.
-/
import proofs.«124080_j34437047779388_1_alg».proof.Proof.KernelIdealFrame
import Idealize.ShloMosaic.Lib.StableHlo.Run

set_option maxRecDepth 16384

noncomputable section

namespace Cert.KernelIdeal.HostK

open Idealize.ShloMosaic Idealize.ShloMosaic.TcCoe Idealize.ShloMosaic.StableHlo
open Idealize.SL Idealize.SL.Sem
open Cert.KernelIdeal Cert.KernelIdeal.Gen Cert.KernelIdeal.GenP

variable {F : FTy → Type} [FloatOps F]

/-! ## The shared host pieces, as functions of the argument arrays -/

/-- Column 0 of the atom-index pairs, a negative index wrapped by 50000, as a column of start indices. -/
def atomIdx0 (x2 : (⟨S1000000x2, .i32⟩ : BufTy).Contents (Elt F)) : (⟨S1000000x1, .i32⟩ : BufTy).Contents (Elt F) :=
  broadcastInDim S1000000x1 ![0] bcast_S1000000_S1000000x1_0 (select (cmpi .slt (shapeCast _ (extractStridedSlice S1000000x1 ![0, 0] x2 slices_S1000000x2_S1000000x1_0_0) shapeCasts_S1000000x1_S1000000) (broadcastInDim S1000000 ![] bcast_S_S1000000 (constantI S_ 32 0#32))) (addi (shapeCast _ (extractStridedSlice S1000000x1 ![0, 0] x2 slices_S1000000x2_S1000000x1_0_0) shapeCasts_S1000000x1_S1000000) (broadcastInDim S1000000 ![] bcast_S_S1000000 (constantI S_ 32 50000#32))) (shapeCast _ (extractStridedSlice S1000000x1 ![0, 0] x2 slices_S1000000x2_S1000000x1_0_0) shapeCasts_S1000000x1_S1000000))
/-- Column 1 of the atom-index pairs, likewise. -/
def atomIdx1 (x2 : (⟨S1000000x2, .i32⟩ : BufTy).Contents (Elt F)) : (⟨S1000000x1, .i32⟩ : BufTy).Contents (Elt F) :=
  broadcastInDim S1000000x1 ![0] bcast_S1000000_S1000000x1_0 (select (cmpi .slt (shapeCast _ (extractStridedSlice S1000000x1 ![0, 1] x2 slices_S1000000x2_S1000000x1_0_1) shapeCasts_S1000000x1_S1000000) (broadcastInDim S1000000 ![] bcast_S_S1000000 (constantI S_ 32 0#32))) (addi (shapeCast _ (extractStridedSlice S1000000x1 ![0, 1] x2 slices_S1000000x2_S1000000x1_0_1) shapeCasts_S1000000x1_S1000000) (broadcastInDim S1000000 ![] bcast_S_S1000000 (constantI S_ 32 50000#32))) (shapeCast _ (extractStridedSlice S1000000x1 ![0, 1] x2 slices_S1000000x2_S1000000x1_0_1) shapeCasts_S1000000x1_S1000000))
/-- The edge indices, a negative index wrapped by 200000, as a column of start indices. -/
def edgeIdx (x3 : (⟨S1000000, .i32⟩ : BufTy).Contents (Elt F)) : (⟨S1000000x1, .i32⟩ : BufTy).Contents (Elt F) :=
  broadcastInDim S1000000x1 ![0] bcast_S1000000_S1000000x1_0 (select (cmpi .slt x3 (broadcastInDim S1000000 ![] bcast_S_S1000000 (constantI S_ 32 0#32))) (addi x3 (broadcastInDim S1000000 ![] bcast_S_S1000000 (constantI S_ 32 200000#32))) x3)
/-- The first atom's feature row of every sub-edge. -/
def atom0 (x0 : (⟨S50000x64, .f32⟩ : BufTy).Contents (Elt F)) (x2 : (⟨S1000000x2, .i32⟩ : BufTy).Contents (Elt F)) : (⟨S1000000x64, .f32⟩ : BufTy).Contents (Elt F) :=
  Host.gather gather_S50000x64_S1000000x1_S1000000x64_1_0_n_n_0_1_164 x0 (atomIdx0 (F := F) x2)
/-- The second atom's feature row of every sub-edge. -/
def atom1 (x0 : (⟨S50000x64, .f32⟩ : BufTy).Contents (Elt F)) (x2 : (⟨S1000000x2, .i32⟩ : BufTy).Contents (Elt F)) : (⟨S1000000x64, .f32⟩ : BufTy).Contents (Elt F) :=
  Host.gather gather_S50000x64_S1000000x1_S1000000x64_1_0_n_n_0_1_164 x0 (atomIdx1 (F := F) x2)
/-- The edge's feature row of every sub-edge. -/
def edgeG (x1 : (⟨S200000x112, .f32⟩ : BufTy).Contents (Elt F)) (x3 : (⟨S1000000, .i32⟩ : BufTy).Contents (Elt F)) : (⟨S1000000x112, .f32⟩ : BufTy).Contents (Elt F) :=
  Host.gather gather_S200000x112_S1000000x1_S1000000x112_1_0_n_n_0_1_1112 x1 (edgeIdx (F := F) x3)
/-- The distance decay exp(−d·d / 9 / 2) of every sub-edge's gathered distance d. -/
def decay (x3 : (⟨S1000000, .i32⟩ : BufTy).Contents (Elt F)) (x6 : (⟨S200000, .f32⟩ : BufTy).Contents (Elt F)) : (⟨S1000000, .f32⟩ : BufTy).Contents (Elt F) :=
  Host.exp (Host.divf (Host.divf (Host.negf (mulf (Host.gather gather_S200000_S1000000x1_S1000000_n_0_n_n_0_1_1 x6 (edgeIdx (F := F) x3)) (Host.gather gather_S200000_S1000000x1_S1000000_n_0_n_n_0_1_1 x6 (edgeIdx (F := F) x3)))) (broadcastInDim S1000000 ![] bcast_S_S1000000 (constant S_ .f32 0x41100000#32))) (broadcastInDim S1000000 ![] bcast_S_S1000000 (constant S_ .f32 0x40000000#32)))
/-- The decay as a column. -/
def decayCol (x3 : (⟨S1000000, .i32⟩ : BufTy).Contents (Elt F)) (x6 : (⟨S200000, .f32⟩ : BufTy).Contents (Elt F)) : (⟨S1000000x1, .f32⟩ : BufTy).Contents (Elt F) :=
  broadcastInDim S1000000x1 ![0] bcast_S1000000_S1000000x1_0 (decay (F := F) x3 x6)
/-- The even slots of the scattered sums of the messages X: the first half of every edge's pair. -/
def half0 (x5 : (⟨S1000000, .i32⟩ : BufTy).Contents (Elt F)) (X : (⟨S1000000x64, .f32⟩ : BufTy).Contents (Elt F)) : (⟨S200000x64, .f32⟩ : BufTy).Contents (Elt F) :=
  shapeCast _ (extractStridedSlice S200000x1x64 ![0, 0, 0] (shapeCast _ (Host.scatterAdd scatter_S400000x64_S1000000x1_S1000000x64_1_0_0_1 (broadcastInDim S400000x64 ![] bcast_S_S400000x64 (constant S_ .f32 0x00000000#32)) (broadcastInDim S1000000x1 ![0] bcast_S1000000_S1000000x1_0 x5) X) shapeCasts_S400000x64_S200000x2x64) slices_S200000x2x64_S200000x1x64_0_0_0) shapeCasts_S200000x1x64_S200000x64
/-- The odd slots: the second half of every edge's pair. -/
def half1 (x5 : (⟨S1000000, .i32⟩ : BufTy).Contents (Elt F)) (X : (⟨S1000000x64, .f32⟩ : BufTy).Contents (Elt F)) : (⟨S200000x64, .f32⟩ : BufTy).Contents (Elt F) :=
  shapeCast _ (extractStridedSlice S200000x1x64 ![0, 1, 0] (shapeCast _ (Host.scatterAdd scatter_S400000x64_S1000000x1_S1000000x64_1_0_0_1 (broadcastInDim S400000x64 ![] bcast_S_S400000x64 (constant S_ .f32 0x00000000#32)) (broadcastInDim S1000000x1 ![0] bcast_S1000000_S1000000x1_0 x5) X) shapeCasts_S400000x64_S200000x2x64) slices_S200000x2x64_S200000x1x64_0_1_0) shapeCasts_S200000x1x64_S200000x64

variable (m : (ℓ : Loc nD τ sig) → Buf (Elt F) ℓ) (ρ : Dev nD → PrngReg)

/-! ## Region 0's arrays at its entry -/

set_option maxHeartbeats 4000000 in
/-- The atom-pair features: the two gathers joined. -/
theorem V1_main_v18 (c : Dev nD) : V1 (F := F) m ρ c main_v18
    = concatenate S1000000x128 1 [⟨S1000000x64, atom0 (F := F) (m ((c : Thread nD τ).loc main_arg0)) (m ((c : Thread nD τ).loc main_arg2))⟩, ⟨S1000000x64, atom1 (F := F) (m ((c : Thread nD τ).loc main_arg0)) (m ((c : Thread nD τ).loc main_arg2))⟩] concatenates_S1000000x64_S1000000x64_S1000000x128_d1 := by
  dsimp only [V1, W1, hostOps0]
  after_results_simp
  refine congrArg₂ (fun a b => concatenate S1000000x128 1 [⟨S1000000x64, a⟩, ⟨S1000000x64, b⟩] concatenates_S1000000x64_S1000000x64_S1000000x128_d1) ?_ ?_
  · after_results_simp
    rfl
  · after_results_simp
    rfl

set_option maxHeartbeats 4000000 in
/-- The gathered edge features. -/
theorem V1_main_v25 (c : Dev nD) : V1 (F := F) m ρ c main_v25
    = edgeG (F := F) (m ((c : Thread nD τ).loc main_arg1)) (m ((c : Thread nD τ).loc main_arg3)) := by
  dsimp only [V1, W1, hostOps0]
  after_results_simp
  rfl

set_option maxHeartbeats 4000000 in
/-- The angular features with the decay as a 17th column. -/
theorem V1_main_v41 (c : Dev nD) : V1 (F := F) m ρ c main_v41
    = concatenate S1000000x17 1 [⟨S1000000x16, m ((c : Thread nD τ).loc main_arg4)⟩, ⟨S1000000x1, decayCol (F := F) (m ((c : Thread nD τ).loc main_arg3)) (m ((c : Thread nD τ).loc main_arg6))⟩] concatenates_S1000000x16_S1000000x1_S1000000x17_d1 := by
  dsimp only [V1, W1, hostOps0]
  after_results_simp
  refine congrArg₂ (fun a b => concatenate S1000000x17 1 [⟨S1000000x16, a⟩, ⟨S1000000x1, b⟩] concatenates_S1000000x16_S1000000x1_S1000000x17_d1) ?_ ?_
  · after_results_simp
  · after_results_simp
    rfl

/-- `main_arg7` is written by no operation of the first stretch: region 0 finds it as launched. -/
theorem V1_main_arg7 (c : Dev nD) : V1 (F := F) m ρ c main_arg7 = m ((c : Thread nD τ).loc main_arg7) :=
  calc W1 m ρ c (Proc.devRef .tc main_arg7)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- `main_arg8` is written by no operation of the first stretch: region 0 finds it as launched. -/
theorem V1_main_arg8 (c : Dev nD) : V1 (F := F) m ρ c main_arg8 = m ((c : Thread nD τ).loc main_arg8) :=
  calc W1 m ρ c (Proc.devRef .tc main_arg8)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- `main_arg9` is written by no operation of the first stretch: region 0 finds it as launched. -/
theorem V1_main_arg9 (c : Dev nD) : V1 (F := F) m ρ c main_arg9 = m ((c : Thread nD τ).loc main_arg9) :=
  calc W1 m ρ c (Proc.devRef .tc main_arg9)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- `main_arg10` is written by no operation of the first stretch: region 0 finds it as launched. -/
theorem V1_main_arg10 (c : Dev nD) : V1 (F := F) m ρ c main_arg10 = m ((c : Thread nD τ).loc main_arg10) :=
  calc W1 m ρ c (Proc.devRef .tc main_arg10)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-! ## Region 1's arrays at its entry -/

set_option maxHeartbeats 4000000 in
/-- The aggregated features: the two halves of the scattered sums of region 0's output, side by side. -/
theorem V3_main_v51 (c : Dev nD) : V3 (F := F) m ρ c main_v51
    = concatenate S200000x128 1 [⟨S200000x64, half0 (F := F) (W2 m ρ c (Proc.devRef .tc main_arg5)) (W2 m ρ c (Proc.devRef .tc main_v42))⟩, ⟨S200000x64, half1 (F := F) (W2 m ρ c (Proc.devRef .tc main_arg5)) (W2 m ρ c (Proc.devRef .tc main_v42))⟩] concatenates_S200000x64_S200000x64_S200000x128_d1 := by
  dsimp only [V3, W3, hostOps1]
  after_results_simp
  refine congrArg₂ (fun a b => concatenate S200000x128 1 [⟨S200000x64, a⟩, ⟨S200000x64, b⟩] concatenates_S200000x64_S200000x64_S200000x128_d1) ?_ ?_
  · after_results_simp
    rfl
  · after_results_simp
    rfl

/-- The scatter's indices are the launch's: neither the first stretch nor region 0 writes `main_arg5`. -/
theorem W2_main_arg5 (c : Dev nD) : W2 (F := F) m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- `main_arg1` is written by neither stretch and is no output of region 0: region 1 finds it as launched. -/
theorem V3_main_arg1 (c : Dev nD) : V3 (F := F) m ρ c main_arg1 = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg11` is written by neither stretch and is no output of region 0: region 1 finds it as launched. -/
theorem V3_main_arg11 (c : Dev nD) : V3 (F := F) m ρ c main_arg11 = m ((c : Thread nD τ).loc main_arg11) :=
  calc W3 m ρ c (Proc.devRef .tc main_arg11)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

/-- `main_arg12` is written by neither stretch and is no output of region 0: region 1 finds it as launched. -/
theorem V3_main_arg12 (c : Dev nD) : V3 (F := F) m ρ c main_arg12 = m ((c : Thread nD τ).loc main_arg12) :=
  calc W3 m ρ c (Proc.devRef .tc main_arg12)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

/-- `main_arg13` is written by neither stretch and is no output of region 0: region 1 finds it as launched. -/
theorem V3_main_arg13 (c : Dev nD) : V3 (F := F) m ρ c main_arg13 = m ((c : Thread nD τ).loc main_arg13) :=
  calc W3 m ρ c (Proc.devRef .tc main_arg13)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

/-- `main_arg14` is written by neither stretch and is no output of region 0: region 1 finds it as launched. -/
theorem V3_main_arg14 (c : Dev nD) : V3 (F := F) m ρ c main_arg14 = m ((c : Thread nD τ).loc main_arg14) :=
  calc W3 m ρ c (Proc.devRef .tc main_arg14)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

end Cert.KernelIdeal.HostK

end
-- ==== Proof.Spec.lean ====
/-
  The two dense stages of the edge-update layer as functions of whole arrays, index by index, over the extended reals.

  Stage one (per sub-edge row r, output column q):
      gate (Σ_k z(r,k)·Wf(k,q) + bf(q)) (Σ_k z(r,k)·Ws(k,q) + bs(q)) (decay r),
  where z(r,·) is the row of 256 features — 128 atom-pair features, 112 edge features, 16 angular features — and
  gate u v d = sigmoid(u) · softplus(v) · d.  The decay of row r travels as the 17th column of the angle array.

  Stage two (per edge row r, output column q):
      Σ_k silu (Σ_l h(r,l)·W1(l,k) + b1(k)) · W2(k,q) + b2(q),
  where h(r,·) is the row of 240 features — 128 aggregated features, 112 edge features.

  Both are stated for any number R of rows: an output row depends on the same row of the row-indexed inputs only, so a
  block of rows of the result is the same function of the matching blocks of the inputs (the congruence lemmas below).
-/
import Idealize.ShloMosaic.PureOps.Ideal
import Idealize.ShloMosaic.Lib.ValueIdx

noncomputable section

namespace Cert.Spec

open Idealize.ShloMosaic Idealize.ShloMosaic.ValueIdx
open scoped BigOperators

/-- softplus in the stable form both programs use: max(x, 0) + log(1 + e^(−|x − 0|)), the absolute value written as
    max(y, −y). -/
def softplus (x : EReal) : EReal := max x 0 + Ideal.log1p (Ideal.exp (-(max (x - 0) (-(x - 0)))))

/-- sigmoid(u) · softplus(v) · d, grouped as (sigmoid · softplus) · d. -/
def gate (u v d : EReal) : EReal := Ideal.logistic u * softplus v * d

/-- u · sigmoid(u). -/
def silu (u : EReal) : EReal := u * Ideal.logistic u

variable {R : Nat}

/-- Row r of the gating layer's input, column k of 256: atom-pair features for k < 128, edge features for
    128 ≤ k < 240, and the first 16 columns of the 17-column angle-and-decay array for 240 ≤ k. -/
def gateIn (A : FVec Ideal ⟨2, ![R, 128]⟩ .f32) (E : FVec Ideal ⟨2, ![R, 112]⟩ .f32) (D : FVec Ideal ⟨2, ![R, 17]⟩ .f32)
    (r : Fin R) (k : Fin 256) : EReal :=
  if h1 : k.val < 128 then A (ix2 r ⟨k.val, h1⟩)
  else if h2 : k.val < 240 then E (ix2 r ⟨k.val - 128, by omega⟩)
  else D (ix2 r ⟨k.val - 240, by omega⟩)

/-- The gated message of row r at column q; the decay is column 16 of the angle-and-decay array. -/
def gatedAt (A : FVec Ideal ⟨2, ![R, 128]⟩ .f32) (E : FVec Ideal ⟨2, ![R, 112]⟩ .f32) (D : FVec Ideal ⟨2, ![R, 17]⟩ .f32)
    (Wf : FVec Ideal ⟨2, ![256, 64]⟩ .f32) (bf : FVec Ideal ⟨1, ![64]⟩ .f32)
    (Ws : FVec Ideal ⟨2, ![256, 64]⟩ .f32) (bs : FVec Ideal ⟨1, ![64]⟩ .f32) (r : Fin R) (q : Fin 64) : EReal :=
  gate (∑ k : Fin 256, gateIn A E D r k * Wf (ix2 k q) + bf (ix1 q))
       (∑ k : Fin 256, gateIn A E D r k * Ws (ix2 k q) + bs (ix1 q))
       (D (ix2 r (16 : Fin 17)))

/-- The gated messages as an array of R rows. -/
def gated (A : FVec Ideal ⟨2, ![R, 128]⟩ .f32) (E : FVec Ideal ⟨2, ![R, 112]⟩ .f32) (D : FVec Ideal ⟨2, ![R, 17]⟩ .f32)
    (Wf : FVec Ideal ⟨2, ![256, 64]⟩ .f32) (bf : FVec Ideal ⟨1, ![64]⟩ .f32)
    (Ws : FVec Ideal ⟨2, ![256, 64]⟩ .f32) (bs : FVec Ideal ⟨1, ![64]⟩ .f32) : FVec Ideal ⟨2, ![R, 64]⟩ .f32 :=
  fun i => gatedAt A E D Wf bf Ws bs (i 0) (i 1)

theorem gated_apply (A : FVec Ideal ⟨2, ![R, 128]⟩ .f32) (E : FVec Ideal ⟨2, ![R, 112]⟩ .f32) (D : FVec Ideal ⟨2, ![R, 17]⟩ .f32)
    (Wf : FVec Ideal ⟨2, ![256, 64]⟩ .f32) (bf : FVec Ideal ⟨1, ![64]⟩ .f32)
    (Ws : FVec Ideal ⟨2, ![256, 64]⟩ .f32) (bs : FVec Ideal ⟨1, ![64]⟩ .f32) (r : Fin R) (q : Fin 64) :
    gated A E D Wf bf Ws bs (ix2 r q) = gatedAt A E D Wf bf Ws bs r q := rfl

/-- A gated message depends on its own row of the three row-indexed inputs only. -/
theorem gatedAt_congr {R' : Nat}
    (A : FVec Ideal ⟨2, ![R, 128]⟩ .f32) (E : FVec Ideal ⟨2, ![R, 112]⟩ .f32) (D : FVec Ideal ⟨2, ![R, 17]⟩ .f32)
    (A' : FVec Ideal ⟨2, ![R', 128]⟩ .f32) (E' : FVec Ideal ⟨2, ![R', 112]⟩ .f32) (D' : FVec Ideal ⟨2, ![R', 17]⟩ .f32)
    (Wf : FVec Ideal ⟨2, ![256, 64]⟩ .f32) (bf : FVec Ideal ⟨1, ![64]⟩ .f32)
    (Ws : FVec Ideal ⟨2, ![256, 64]⟩ .f32) (bs : FVec Ideal ⟨1, ![64]⟩ .f32) (r : Fin R) (r' : Fin R')
    (hA : ∀ k : Fin 128, A (ix2 r k) = A' (ix2 r' k)) (hE : ∀ k : Fin 112, E (ix2 r k) = E' (ix2 r' k))
    (hD : ∀ k : Fin 17, D (ix2 r k) = D' (ix2 r' k)) (q : Fin 64) :
    gatedAt A E D Wf bf Ws bs r q = gatedAt A' E' D' Wf bf Ws bs r' q := by
  have hz : ∀ k : Fin 256, gateIn A E D r k = gateIn A' E' D' r' k := fun k => by
    unfold gateIn
    split
    · exact hA _
    · split
      · exact hE _
      · exact hD _
  unfold gatedAt
  rw [hD]
  simp only [hz]

/-- Row r of the edge network's input, column l of 240: aggregated features for l < 128, edge features after. -/
def mlpIn (P : FVec Ideal ⟨2, ![R, 128]⟩ .f32) (E : FVec Ideal ⟨2, ![R, 112]⟩ .f32) (r : Fin R) (l : Fin 240) : EReal :=
  if h1 : l.val < 128 then P (ix2 r ⟨l.val, h1⟩) else E (ix2 r ⟨l.val - 128, by omega⟩)

/-- The hidden activation of row r at unit k. -/
def hiddenAt (P : FVec Ideal ⟨2, ![R, 128]⟩ .f32) (E : FVec Ideal ⟨2, ![R, 112]⟩ .f32)
    (W1 : FVec Ideal ⟨2, ![240, 128]⟩ .f32) (b1 : FVec Ideal ⟨1, ![128]⟩ .f32) (r : Fin R) (k : Fin 128) : EReal :=
  silu (∑ l : Fin 240, mlpIn P E r l * W1 (ix2 l k) + b1 (ix1 k))

/-- The edge network's output of row r at column q. -/
def edgeOutAt (P : FVec Ideal ⟨2, ![R, 128]⟩ .f32) (E : FVec Ideal ⟨2, ![R, 112]⟩ .f32)
    (W1 : FVec Ideal ⟨2, ![240, 128]⟩ .f32) (b1 : FVec Ideal ⟨1, ![128]⟩ .f32)
    (W2 : FVec Ideal ⟨2, ![128, 144]⟩ .f32) (b2 : FVec Ideal ⟨1, ![144]⟩ .f32) (r : Fin R) (q : Fin 144) : EReal :=
  ∑ k : Fin 128, hiddenAt P E W1 b1 r k * W2 (ix2 k q) + b2 (ix1 q)

/-- The edge network's output as an array of R rows. -/
def edgeOut (P : FVec Ideal ⟨2, ![R, 128]⟩ .f32) (E : FVec Ideal ⟨2, ![R, 112]⟩ .f32)
    (W1 : FVec Ideal ⟨2, ![240, 128]⟩ .f32) (b1 : FVec Ideal ⟨1, ![128]⟩ .f32)
    (W2 : FVec Ideal ⟨2, ![128, 144]⟩ .f32) (b2 : FVec Ideal ⟨1, ![144]⟩ .f32) : FVec Ideal ⟨2, ![R, 144]⟩ .f32 :=
  fun i => edgeOutAt P E W1 b1 W2 b2 (i 0) (i 1)

theorem edgeOut_apply (P : FVec Ideal ⟨2, ![R, 128]⟩ .f32) (E : FVec Ideal ⟨2, ![R, 112]⟩ .f32)
    (W1 : FVec Ideal ⟨2, ![240, 128]⟩ .f32) (b1 : FVec Ideal ⟨1, ![128]⟩ .f32)
    (W2 : FVec Ideal ⟨2, ![128, 144]⟩ .f32) (b2 : FVec Ideal ⟨1, ![144]⟩ .f32) (r : Fin R) (q : Fin 144) :
    edgeOut P E W1 b1 W2 b2 (ix2 r q) = edgeOutAt P E W1 b1 W2 b2 r q := rfl

/-- An output row of the edge network depends on its own row of the two row-indexed inputs only. -/
theorem edgeOutAt_congr {R' : Nat}
    (P : FVec Ideal ⟨2, ![R, 128]⟩ .f32) (E : FVec Ideal ⟨2, ![R, 112]⟩ .f32)
    (P' : FVec Ideal ⟨2, ![R', 128]⟩ .f32) (E' : FVec Ideal ⟨2, ![R', 112]⟩ .f32)
    (W1 : FVec Ideal ⟨2, ![240, 128]⟩ .f32) (b1 : FVec Ideal ⟨1, ![128]⟩ .f32)
    (W2 : FVec Ideal ⟨2, ![128, 144]⟩ .f32) (b2 : FVec Ideal ⟨1, ![144]⟩ .f32) (r : Fin R) (r' : Fin R')
    (hP : ∀ k : Fin 128, P (ix2 r k) = P' (ix2 r' k)) (hE : ∀ k : Fin 112, E (ix2 r k) = E' (ix2 r' k)) (q : Fin 144) :
    edgeOutAt P E W1 b1 W2 b2 r q = edgeOutAt P' E' W1 b1 W2 b2 r' q := by
  have hh : ∀ l : Fin 240, mlpIn P E r l = mlpIn P' E' r' l := fun l => by
    unfold mlpIn
    split
    · exact hP _
    · exact hE _
  unfold edgeOutAt hiddenAt
  simp only [hh]

end Cert.Spec

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.Payload0.lean ====
/-
  The value the first kernel stores, on a block of 4000 rows, is the gated message of the specification.

  At index (p, q) of the 4000×64 block the stored value is  (sigmoid(u) · softplus(v)) · d  with
      u = Σ_k z(p,k)·Wf(k,q) + bf(q),   v = Σ_k z(p,k)·Ws(k,q) + bs(q),
  z the concatenation along the columns of the 128-column block, the 112-column block and columns 0..15 of the
  17-column block, and d column 16 of the 17-column block. Each operation that is not elementwise is read at an
  index by one lemma below; the elementwise ones read through by definition.
-/
import proofs.«124080_j34437047779388_1_alg».proof.Proof.Gen.KernelIdeal.Skeleton
import proofs.«124080_j34437047779388_1_alg».proof.Proof.Spec
import proofs.«124080_j34437047779388_1_alg».proof.Proof.LibPlainDot
import Idealize.ShloMosaic.Lib.Pipeline.Value
import Idealize.ShloMosaic.Lib.ValueIdx
import Idealize.ShloMosaic.PureOps.Ideal.Laws

noncomputable section

namespace Cert.KernelIdeal.Pay0

open Idealize.ShloMosaic Idealize.ShloMosaic.ValueIdx Cert.KernelIdeal Cert.KernelIdeal.Gen
open scoped BigOperators

/-! ## Elementwise operations at an index, on the extended reals -/

section Elementwise
variable {s : Shape} {φ : FTy}

/-- The sigmoid at an index is the sigmoid of the element. -/
theorem logistic_apply (a : FVec Ideal s φ) (i : s.Idx) : logistic a i = Ideal.logistic (a i) := rfl
/-- The exponential at an index is the exponential of the element. -/
theorem exp_apply (a : FVec Ideal s φ) (i : s.Idx) : exp a i = Ideal.exp (a i) := rfl
/-- log(1 + ·) at an index is log(1 + ·) of the element. -/
theorem log1p_apply (a : FVec Ideal s φ) (i : s.Idx) : log1p a i = Ideal.log1p (a i) := rfl
/-- The absolute value at an index is max(x, −x) of the element. -/
theorem absf_apply (a : FVec Ideal s φ) (i : s.Idx) : absf a i = max (a i) (-(a i)) := rfl
/-- A comparison at an index is the linear order's comparison of the elements. -/
theorem cmpf_ideal_apply (c : CmpFPredicate) (a b : FVec Ideal s φ) (i : s.Idx) :
    cmpf c a b i = Ideal.cmp c (a i) (b i) := rfl

end Elementwise

/-! ## The softplus spelling -/

/-- "Ordered and not equal" of a value with itself is the bit 0: x ≠ x is false, and nothing is unordered. -/
theorem cmp_one_self (x : EReal) : Ideal.cmp .one x x = 0#1 := by
  show BitVec.ofBool (decide (x ≠ x)) = 0#1
  rw [decide_eq_false (fun h => h rfl)]
  rfl

/-- The guarded stable softplus is the specification's softplus: the guard y − 0 ≠ y − 0 is never taken, so the
    select is its second branch  max(y, 0) + log(1 + e^(0 − |y − 0|)); the zero word is 0, and 0 − a = −a. -/
theorem softplus_spelling (y : EReal) :
    Scalar.select (Ideal.cmp .one (y - Ideal.ofBits .f32 0x00000000#32) (y - Ideal.ofBits .f32 0x00000000#32))
        (y + Ideal.ofBits .f32 0x00000000#32)
        (max y (Ideal.ofBits .f32 0x00000000#32)
          + Ideal.log1p (Ideal.exp (Ideal.ofBits .f32 0x00000000#32
              - max (y - Ideal.ofBits .f32 0x00000000#32) (-(y - Ideal.ofBits .f32 0x00000000#32)))))
      = Cert.Spec.softplus y := by
  rw [cmp_one_self, select_zero, Ideal.ofBits_zero_f32, zero_sub]
  rfl

/-! ## The layout operations at an index -/

/-- The concatenation along the columns of a 128-column block, a 112-column block and the first 16 columns of a
    17-column block, read at (p, k), is the specification's input row at k: the first piece at k for k < 128, the
    second at k − 128 for 128 ≤ k < 240, the third at k − 240 after that (a slice with zero offsets reads its
    operand at the same index). The casts to the same shape are the identity. -/
theorem concat_apply (v0 : FVec Ideal S4000x128 .f32) (v2 : FVec Ideal S4000x112 .f32) (v4 : FVec Ideal S4000x17 .f32)
    (p : Fin 4000) (k : Fin 256) :
    concatenate S4000x256 1
        [⟨S4000x128, shapeCast S4000x128 v0 shapeCasts_S4000x128_S4000x128⟩,
         ⟨S4000x112, shapeCast S4000x112 v2 shapeCasts_S4000x112_S4000x112⟩,
         ⟨S4000x16, extractStridedSlice S4000x16 ![0, 0] (shapeCast S4000x17 v4 shapeCasts_S4000x17_S4000x17)
            slices_S4000x17_o0_0_S4000x16⟩]
        concatenates_S4000x128_S4000x112_S4000x16_S4000x256_d1 (ix2 p k)
      = Cert.Spec.gateIn v0 v2 v4 p k := by
  rw [shapeCast_self, shapeCast_self, shapeCast_self]
  unfold Cert.Spec.gateIn
  split
  · next h1 =>
    -- k < 128: no columns before the first piece
    refine concatenate_apply_piece (α := EReal) (t := S4000x256) (1 : Fin 2)
      ([⟨S4000x128, v0⟩, ⟨S4000x112, v2⟩,
        ⟨S4000x16, extractStridedSlice S4000x16 ![0, 0] v4 slices_S4000x17_o0_0_S4000x16⟩] : List ((s : Shape) × (s.Idx → EReal)))
      concatenates_S4000x128_S4000x112_S4000x16_S4000x256_d1 (ix2 p k)
      0 (Nat.succ_pos _) S4000x128 v0 rfl rfl 0 rfl (ix2 p ⟨k.val, h1⟩) (fun b hb => ?_) (Nat.zero_add _)
    match b with
    | ⟨0, _⟩ => rfl
    | ⟨1, _⟩ => exact absurd rfl hb
  · next h1 =>
    split
    · next h2 =>
      -- 128 ≤ k < 240: 128 columns before the second piece
      refine concatenate_apply_piece (α := EReal) (t := S4000x256) (1 : Fin 2)
        ([⟨S4000x128, v0⟩, ⟨S4000x112, v2⟩,
        ⟨S4000x16, extractStridedSlice S4000x16 ![0, 0] v4 slices_S4000x17_o0_0_S4000x16⟩] : List ((s : Shape) × (s.Idx → EReal)))
        concatenates_S4000x128_S4000x112_S4000x16_S4000x256_d1 (ix2 p k)
        1 (Nat.succ_lt_succ (Nat.succ_pos _)) S4000x112 v2 rfl rfl 128 rfl (ix2 p ⟨k.val - 128, by omega⟩)
        (fun b hb => ?_) ?_
      · match b with
        | ⟨0, _⟩ => rfl
        | ⟨1, _⟩ => exact absurd rfl hb
      · show 128 + (k.val - 128) = k.val
        omega
    · next h2 =>
      -- 240 ≤ k: 128 + 112 columns before the third piece, which is a slice of the 17-column block
      have hk := k.isLt
      refine (concatenate_apply_piece (α := EReal) (t := S4000x256) (1 : Fin 2)
        ([⟨S4000x128, v0⟩, ⟨S4000x112, v2⟩,
        ⟨S4000x16, extractStridedSlice S4000x16 ![0, 0] v4 slices_S4000x17_o0_0_S4000x16⟩] : List ((s : Shape) × (s.Idx → EReal)))
        concatenates_S4000x128_S4000x112_S4000x16_S4000x256_d1 (ix2 p k)
        2 (Nat.succ_lt_succ (Nat.succ_lt_succ (Nat.succ_pos _))) S4000x16 _ rfl rfl 240 rfl
        (ix2 p ⟨k.val - 240, by omega⟩) (fun b hb => ?_) ?_).trans ?_
      · match b with
        | ⟨0, _⟩ => rfl
        | ⟨1, _⟩ => exact absurd rfl hb
      · show 240 + (k.val - 240) = k.val
        omega
      · refine extractStridedSlice_apply ![0, 0] v4 slices_S4000x17_o0_0_S4000x16 (ix2 p ⟨k.val - 240, by omega⟩)
          (ix2 p ⟨k.val - 240, by omega⟩) (fun a => ?_)
        match a with
        | ⟨0, _⟩ => show p.val = 0 + p.val; omega
        | ⟨1, _⟩ => show k.val - 240 = 0 + (k.val - 240); omega

/-- The decay: column 16 of the 17-column block as a 4000×1 column, broadcast along the row. At (p, q) the
    broadcast reads the column at (p, 0), and the slice with offsets (0, 16) reads the block at (p, 16). -/
theorem decay_apply (v4 : FVec Ideal S4000x17 .f32) (p : Fin 4000) (q : Fin 64) :
    broadcastTo S4000x64
        (extractStridedSlice S4000x1 ![0, 16] (shapeCast S4000x17 v4 shapeCasts_S4000x17_S4000x17)
          slices_S4000x17_o0_16_S4000x1)
        broadcasts_S4000x1_S4000x64 (ix2 p q)
      = v4 (ix2 p (16 : Fin 17)) := by
  rw [shapeCast_self]
  refine (broadcastTo_apply _ broadcasts_S4000x1_S4000x64 (ix2 p q) (ix2 p (0 : Fin 1)) (fun a => ?_)).trans ?_
  · match a with
    | ⟨0, _⟩ => rfl
    | ⟨1, _⟩ => rfl
  · refine extractStridedSlice_apply ![0, 16] v4 slices_S4000x17_o0_16_S4000x1 (ix2 p (0 : Fin 1))
      (ix2 p (16 : Fin 17)) (fun a => ?_)
    match a with
    | ⟨0, _⟩ => show p.val = 0 + p.val; omega
    | ⟨1, _⟩ => rfl

/-! ## The two dense products -/

/-- A plain 4000×256 by 256×64 product into the zero accumulator, the operands narrowed to bf16 (the identity on
    extended reals), at (p, q): the sum over the 256 contracted columns. -/
theorem dense_apply (z : FVec Ideal S4000x256 .f32) (W : FVec Ideal S256x64 .f32) (p : Fin 4000) (q : Fin 64) :
    matmul dot_S4000x256_S256x64_S4000x64_1_0_0_1_n_n none (truncf .bf16 z bitsLt_bf16_f32)
        (truncf .bf16 W bitsLt_bf16_f32) (constant S4000x64 .f32 0x00000000#32) (ix2 p q)
      = ∑ k : Fin 256, z (ix2 p k) * W (ix2 k q) :=
  LibPlainDot.matmul_plain_zero (M := 4000) (K := 256) (N := 64) none (truncf .bf16 z bitsLt_bf16_f32)
    (truncf .bf16 W bitsLt_bf16_f32) (ix2 p q)

/-! ## The stored value -/

/-- The first kernel's stored block is the specification's gated message of the same blocks: at (p, q) the
    elementwise operations read through, the two products are sums over the concatenated row, the biases are the
    vectors at q, the decay is column 16 at row p, and the softplus spelling is the specification's. -/
theorem pay0_eq (v0 : Vec Ideal S4000x128 .f32) (v2 : Vec Ideal S4000x112 .f32) (v4 : Vec Ideal S4000x17 .f32)
    (v10 v12 : Vec Ideal S256x64 .f32) (v15 v20 : Vec Ideal S64 .f32) :
    k0_pay1 (F := Ideal) v0 v2 v4 v10 v12 v15 v20 = Cert.Spec.gated (R := 4000) v0 v2 v4 v10 v15 v12 v20 := by
  funext i
  obtain ⟨p, q, rfl⟩ : ∃ (p : Fin 4000) (q : Fin 64), i = ix2 p q := ⟨i 0, i 1, eq_ix2 i⟩
  rw [Cert.Spec.gated_apply]
  unfold k0_pay1
  simp only [mulf_apply, addf_apply, subf_apply, maximumf_apply, select_apply, cmpf_ideal_apply, broadcast_apply,
    logistic_apply, exp_apply, log1p_apply, absf_apply, Ideal.ofBits_def]
  rw [dense_apply, dense_apply, LibPlainDot.rowBroadcastTo_apply, LibPlainDot.rowBroadcastTo_apply, decay_apply,
    softplus_spelling]
  simp only [concat_apply]
  rfl

end Cert.KernelIdeal.Pay0

end
-- ==== Proof.Payload1.lean ====
/-
  The value the second kernel stores, on a block of 4000 rows, is the edge network's output of the specification.

  At (p, q) the stored value is  Σ_k hid(p, k) · W2(k, q) + b2(q)  with  hid(p, k) = x · sigmoid(x)  and
  x = Σ_l h(p, l) · W1(l, k) + b1(k),  where h(p, ·) is the 128-column block followed by the 112-column block.
  Each product is read as a finite sum over its shared coordinate, the side-by-side block is read by the two cases
  l < 128 and 128 ≤ l, each bias row by its column, and the narrowings to bf16 are the identity on extended reals.
-/
import proofs.«124080_j34437047779388_1_alg».proof.Proof.Gen.KernelIdeal.Skeleton
import proofs.«124080_j34437047779388_1_alg».proof.Proof.Spec
import proofs.«124080_j34437047779388_1_alg».proof.Proof.LibPlainDot
import Idealize.ShloMosaic.Lib.Pipeline.Value
import Idealize.ShloMosaic.Lib.ValueIdx
import Idealize.ShloMosaic.PureOps.Ideal.Laws

noncomputable section

namespace Cert.KernelIdeal.Pay1

open Idealize.ShloMosaic Idealize.ShloMosaic.ValueIdx Cert.KernelIdeal Cert.KernelIdeal.Gen
open scoped BigOperators

/-- The first product at (p, k): row p of the left operand against column k of the right one, a sum over the 240
    shared coordinates. -/
theorem inner_dot (l : FVec Ideal S4000x240 .bf16) (r : FVec Ideal S240x128 .bf16) (p : Fin 4000) (k : Fin 128) :
    matmul dot_S4000x240_S240x128_S4000x128_1_0_0_1_n_n none l r (constant S4000x128 .f32 0x00000000#32) (ix2 p k)
      = ∑ l' : Fin 240, (l (ix2 p l') : EReal) * (r (ix2 l' k) : EReal) :=
  Cert.LibPlainDot.matmul_plain_zero (M := 4000) (K := 240) (N := 128) none l r (ix2 p k)

/-- The second product at (p, q): a sum over the 128 hidden units. -/
theorem outer_dot (l : FVec Ideal S4000x128 .bf16) (r : FVec Ideal S128x144 .bf16) (p : Fin 4000) (q : Fin 144) :
    matmul dot_S4000x128_S128x144_S4000x144_1_0_0_1_n_n none l r (constant S4000x144 .f32 0x00000000#32) (ix2 p q)
      = ∑ k : Fin 128, (l (ix2 p k) : EReal) * (r (ix2 k q) : EReal) :=
  Cert.LibPlainDot.matmul_plain_zero (M := 4000) (K := 128) (N := 144) none l r (ix2 p q)

/-- The two blocks laid side by side along the columns, read at (p, l): the 128-column block at (p, l) when l < 128,
    the 112-column block at (p, l − 128) otherwise — the specification's input row. -/
theorem concat_apply (a : FVec Ideal S4000x128 .f32) (b : FVec Ideal S4000x112 .f32)
    (h : Shape.Concatenates [S4000x128, S4000x112] S4000x240 1) (p : Fin 4000) (l : Fin 240) :
    concatenate S4000x240 1 [⟨S4000x128, a⟩, ⟨S4000x112, b⟩] h (ix2 p l) = Cert.Spec.mlpIn (R := 4000) a b p l := by
  unfold Cert.Spec.mlpIn
  split
  · rename_i h1
    exact concatenate_pair_apply_left (1 : Fin 2) a b h (ix2 p l) rfl (ix2 p ⟨l.val, h1⟩) (fun c => by
      match c with
      | ⟨0, _⟩ => rfl
      | ⟨1, _⟩ => rfl)
  · rename_i h1
    exact concatenate_pair_apply_right (1 : Fin 2) a b h (ix2 p l) rfl rfl (ix2 p ⟨l.val - 128, by omega⟩) (fun c hc => by
      match c, hc with
      | ⟨0, _⟩, _ => rfl
      | ⟨1, _⟩, hc => exact absurd rfl hc)
      (by show l.val - 128 + 128 = l.val; omega)

/-- The hidden layer before its activation, at (p, k): Σ_l h(p, l) · W1(l, k) + b1(k), h the specification's input row.
    The narrowing of both operands to bf16 is the identity on extended reals, and the recast of the first block to its
    own shape is the identity. -/
theorem preact_apply (v0 : Vec Ideal S4000x128 .f32) (v2 : Vec Ideal S4000x112 .f32) (v5 : Vec Ideal S240x128 .f32)
    (v8 : Vec Ideal S128 .f32) (p : Fin 4000) (k : Fin 128) :
    addf (F := Ideal)
      (matmul (F := Ideal) dot_S4000x240_S240x128_S4000x128_1_0_0_1_n_n none
        (truncf (F := Ideal) .bf16
          (concatenate S4000x240 1 [⟨S4000x128, shapeCast S4000x128 v0 shapeCasts_S4000x128_S4000x128⟩, ⟨S4000x112, v2⟩]
            concatenates_S4000x128_S4000x112_S4000x240_d1)
          bitsLt_bf16_f32)
        (truncf (F := Ideal) .bf16 v5 bitsLt_bf16_f32) (constant (F := Ideal) S4000x128 .f32 0x00000000#32))
      (broadcastTo S4000x128 (shapeCast S1x128 v8 shapeCasts_S128_S1x128) broadcasts_S1x128_S4000x128) (ix2 p k)
      = ∑ l : Fin 240, Cert.Spec.mlpIn (R := 4000) v0 v2 p l * v5 (ix2 l k) + v8 (ix1 k) := by
  refine (addf_apply _ _ _).trans ?_
  refine congrArg₂ (· + ·) ?_ (Cert.LibPlainDot.rowBroadcastTo_apply v8 _ _ p k)
  refine (inner_dot _ _ p k).trans ?_
  refine Finset.sum_congr rfl fun l _ => ?_
  refine congrArg₂ (· * ·) ?_ rfl
  rw [shapeCast_self]
  exact concat_apply v0 v2 concatenates_S4000x128_S4000x112_S4000x240_d1 p l

/-- The stored block is the specification's edge-network output, index by index: the outer sum term by term, each
    hidden activation x · sigmoid(x) at the pre-activation x read above, and the bias row b2 at its column. -/
theorem pay1_eq (v0 : Vec Ideal S4000x128 .f32) (v2 : Vec Ideal S4000x112 .f32) (v5 : Vec Ideal S240x128 .f32)
    (v8 : Vec Ideal S128 .f32) (v15 : Vec Ideal S128x144 .f32) (v18 : Vec Ideal S144 .f32) :
    k1_pay1 (F := Ideal) v0 v2 v5 v8 v15 v18 = Cert.Spec.edgeOut (R := 4000) v0 v2 v5 v8 v15 v18 := by
  funext i
  obtain ⟨p, q, rfl⟩ : ∃ (p : Fin 4000) (q : Fin 144), i = ix2 p q := ⟨i 0, i 1, eq_ix2 i⟩
  rw [Cert.Spec.edgeOut_apply]
  unfold k1_pay1 Cert.Spec.edgeOutAt
  refine (addf_apply _ _ _).trans ?_
  refine congrArg₂ (· + ·) ?_ (Cert.LibPlainDot.rowBroadcastTo_apply v18 _ _ p q)
  refine (outer_dot _ _ p q).trans ?_
  refine Finset.sum_congr rfl fun k _ => ?_
  refine congrArg₂ (· * ·) ?_ rfl
  unfold Cert.Spec.hiddenAt Cert.Spec.silu
  refine (mulf_apply _ _ _).trans ?_
  exact congrArg (fun x : EReal => x * Ideal.logistic x) (preact_apply v0 v2 v5 v8 p k)

end Cert.KernelIdeal.Pay1

end
-- ==== Proof.Region0.lean ====
/-
  The first kernel call's output array, from the contents its arrays have when the call is entered: block t of 4000 rows
  is what grid point t stores, the 250 blocks tile the million rows, and a stored row depends on the same row of the
  row-indexed inputs, so the array is the specification's gated messages of the whole input arrays.
-/
import proofs.«124080_j34437047779388_1_alg».proof.Proof.KernelIdealFrame
import proofs.«124080_j34437047779388_1_alg».proof.Proof.Spec
import Idealize.ShloMosaic.Lib.Pipeline.Value
import Idealize.ShloMosaic.Lib.ValueIdx

set_option maxRecDepth 16384

noncomputable section

namespace Cert.KernelIdeal.Reg0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.GenP

variable (V : (c : Dev nD) → (b : Ref sig .tc) → Buf (Elt Ideal) ((c : Thread nD τ).loc b))

/-! ## Where a block sits in its array -/

/-- The zero offsets of a rank-2 buffer, as a constant function. -/
theorem zero2 : (![0, 0] : Fin 2 → Nat) = fun _ => 0 := funext fun a => by fin_cases a <;> rfl
/-- The zero offset of a rank-1 buffer, as a constant function. -/
theorem zero1 : (![0] : Fin 1 → Nat) = fun _ => 0 := funext fun a => by fin_cases a <;> rfl

/-- The grid has 250 points. -/
theorem grid_lt (t : Fin cfg0.N) : t.val < 250 := Nat.lt_of_lt_of_eq t.isLt Cert.KernelIdeal.GenP.N_0

/-- The block indices at grid point t, decided over the 250 points: the three row-indexed inputs and the output are at
    block (t, 0); the two weight matrices and the two biases are always at block 0, the whole array. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-! ## The input blocks, read at an index

A block's element (r', k) sits in the array at row (block index) · 4000 + r' and column k: on each axis the coordinate is
the block index times the block's extent plus the coordinate inside the block. -/

/-- Row r' of the atom-pair block at point t is row 4000·t + r' of the atom-pair array. -/
theorem blockA_apply (c : Dev nD) (t : Fin cfg0.N) (r' : Fin 4000) (r : Fin 1000000) (hr : r.val = t.val * 4000 + r'.val) (k : Fin 128) :
    (iblk0 V c 0 t : Vec Ideal S4000x128 .f32) (ix2 r' k) = (V c main_v18 : S1000000x128.Idx → Ideal .f32) (ix2 r k) := by
  obtain ⟨e0, e1, -⟩ := index_facts t
  show V c main_v18 (((cfg0.win 0).blk t).view.emb (ix2 r' k)) = V c main_v18 (ix2 r k)
  congr 1
  funext a; apply Fin.ext
  match a with
  | ⟨0, _⟩ => show win0_0.index t (0 : Fin 2) * 4000 + 1 * r'.val = r.val; rw [e0, hr]; omega
  | ⟨1, _⟩ => show win0_0.index t (1 : Fin 2) * 128 + 1 * k.val = k.val; rw [e1]; omega

/-- Row r' of the edge-feature block at point t is row 4000·t + r' of the edge-feature array. -/
theorem blockE_apply (c : Dev nD) (t : Fin cfg0.N) (r' : Fin 4000) (r : Fin 1000000) (hr : r.val = t.val * 4000 + r'.val) (k : Fin 112) :
    (iblk0 V c 1 t : Vec Ideal S4000x112 .f32) (ix2 r' k) = (V c main_v25 : S1000000x112.Idx → Ideal .f32) (ix2 r k) := by
  obtain ⟨-, -, e0, e1, -⟩ := index_facts t
  show V c main_v25 (((cfg0.win 1).blk t).view.emb (ix2 r' k)) = V c main_v25 (ix2 r k)
  congr 1
  funext a; apply Fin.ext
  match a with
  | ⟨0, _⟩ => show win0_1.index t (0 : Fin 2) * 4000 + 1 * r'.val = r.val; rw [e0, hr]; omega
  | ⟨1, _⟩ => show win0_1.index t (1 : Fin 2) * 112 + 1 * k.val = k.val; rw [e1]; omega

/-- Row r' of the angle-and-decay block at point t is row 4000·t + r' of the angle-and-decay array. -/
theorem blockD_apply (c : Dev nD) (t : Fin cfg0.N) (r' : Fin 4000) (r : Fin 1000000) (hr : r.val = t.val * 4000 + r'.val) (k : Fin 17) :
    (iblk0 V c 2 t : Vec Ideal S4000x17 .f32) (ix2 r' k) = (V c main_v41 : S1000000x17.Idx → Ideal .f32) (ix2 r k) := by
  obtain ⟨-, -, -, -, e0, e1, -⟩ := index_facts t
  show V c main_v41 (((cfg0.win 2).blk t).view.emb (ix2 r' k)) = V c main_v41 (ix2 r k)
  congr 1
  funext a; apply Fin.ext
  match a with
  | ⟨0, _⟩ => show win0_2.index t (0 : Fin 2) * 4000 + 1 * r'.val = r.val; rw [e0, hr]; omega
  | ⟨1, _⟩ => show win0_2.index t (1 : Fin 2) * 17 + 1 * k.val = k.val; rw [e1]; omega

/-- The filter weights' block is the whole 256 × 64 matrix at every point. -/
theorem weightF_eq (c : Dev nD) (t : Fin cfg0.N) : (iblk0 V c 3 t : Vec Ideal S256x64 .f32) = (V c main_arg7 : S256x64.Idx → Ideal .f32) := by
  obtain ⟨-, -, -, -, -, -, e0, e1, -⟩ := index_facts t
  funext y
  show V c main_arg7 (((cfg0.win 3).blk t).view.emb y) = V c main_arg7 y
  congr 1
  funext a; apply Fin.ext
  match a with
  | ⟨0, _⟩ => show win0_3.index t (0 : Fin 2) * 256 + 1 * (y 0).val = (y 0).val; rw [e0]; omega
  | ⟨1, _⟩ => show win0_3.index t (1 : Fin 2) * 64 + 1 * (y 1).val = (y 1).val; rw [e1]; omega

/-- The filter bias's block is the whole vector of 64 at every point. -/
theorem biasF_eq (c : Dev nD) (t : Fin cfg0.N) : (iblk0 V c 4 t : Vec Ideal S64 .f32) = (V c main_arg8 : S64.Idx → Ideal .f32) := by
  obtain ⟨-, -, -, -, -, -, -, -, e0, -⟩ := index_facts t
  funext y
  show V c main_arg8 (((cfg0.win 4).blk t).view.emb y) = V c main_arg8 y
  congr 1
  funext a; apply Fin.ext
  match a with
  | ⟨0, _⟩ => show win0_4.index t (0 : Fin 1) * 64 + 1 * (y 0).val = (y 0).val; rw [e0]; omega

/-- The softplus weights' block is the whole 256 × 64 matrix at every point. -/
theorem weightS_eq (c : Dev nD) (t : Fin cfg0.N) : (iblk0 V c 5 t : Vec Ideal S256x64 .f32) = (V c main_arg9 : S256x64.Idx → Ideal .f32) := by
  obtain ⟨-, -, -, -, -, -, -, -, -, e0, e1, -⟩ := index_facts t
  funext y
  show V c main_arg9 (((cfg0.win 5).blk t).view.emb y) = V c main_arg9 y
  congr 1
  funext a; apply Fin.ext
  match a with
  | ⟨0, _⟩ => show win0_5.index t (0 : Fin 2) * 256 + 1 * (y 0).val = (y 0).val; rw [e0]; omega
  | ⟨1, _⟩ => show win0_5.index t (1 : Fin 2) * 64 + 1 * (y 1).val = (y 1).val; rw [e1]; omega

/-- The softplus bias's block is the whole vector of 64 at every point. -/
theorem biasS_eq (c : Dev nD) (t : Fin cfg0.N) : (iblk0 V c 6 t : Vec Ideal S64 .f32) = (V c main_arg10 : S64.Idx → Ideal .f32) := by
  obtain ⟨-, -, -, -, -, -, -, -, -, -, -, e0, -⟩ := index_facts t
  funext y
  show V c main_arg10 (((cfg0.win 6).blk t).view.emb y) = V c main_arg10 y
  congr 1
  funext a; apply Fin.ext
  match a with
  | ⟨0, _⟩ => show win0_6.index t (0 : Fin 1) * 64 + 1 * (y 0).val = (y 0).val; rw [e0]; omega

/-! ## The stored block is a block of the whole-array function -/

/-- Element (r', q) of the output block at point t sits in the output array at row 4000·t + r', column q. -/
theorem out_emb (t : Fin cfg0.N) (r' : Fin 4000) (q : Fin 64) (r : Fin 1000000) (hr : r.val = t.val * 4000 + r'.val) :
    (((cfg0.win 7).blk t).view.emb (ix2 r' q) : S1000000x64.Idx) = ix2 r q := by
  obtain ⟨-, -, -, -, -, -, -, -, -, -, -, -, e0, e1⟩ := index_facts t
  funext a; apply Fin.ext
  match a with
  | ⟨0, _⟩ => show win0_7.index t (0 : Fin 2) * 4000 + 1 * r'.val = r.val; rw [e0, hr]; omega
  | ⟨1, _⟩ => show win0_7.index t (1 : Fin 2) * 64 + 1 * q.val = q.val; rw [e1]; omega

/-- The gated messages of the three input blocks at point t, at (r', q), are the gated messages of the whole arrays at
    (4000·t + r', q): a gated message depends on its own row of the row-indexed inputs only, and row r' of each block is
    row 4000·t + r' of its array. -/
theorem gated_block_apply (c : Dev nD) (t : Fin cfg0.N) (y : S4000x64.Idx) :
    Cert.Spec.gated (R := 4000) (iblk0 V c 0 t) (iblk0 V c 1 t) (iblk0 V c 2 t) (V c main_arg7) (V c main_arg8) (V c main_arg9) (V c main_arg10) y
      = Cert.Spec.gated (R := 1000000) (V c main_v18) (V c main_v25) (V c main_v41) (V c main_arg7) (V c main_arg8) (V c main_arg9) (V c main_arg10)
          (((cfg0.win 7).blk t).view.emb y) := by
  obtain ⟨p, q, rfl⟩ : ∃ (p : Fin 4000) (q : Fin 64), y = ix2 p q := ⟨y 0, y 1, eq_ix2 y⟩
  have hlt := grid_lt t
  rw [out_emb t p q ⟨t.val * 4000 + p.val, by omega⟩ rfl, Cert.Spec.gated_apply, Cert.Spec.gated_apply]
  exact Cert.Spec.gatedAt_congr _ _ _ _ _ _ _ _ _ _ p ⟨t.val * 4000 + p.val, by omega⟩
    (blockA_apply V c t p _ rfl) (blockE_apply V c t p _ rfl) (blockD_apply V c t p _ rfl) q

/-- What point t writes back is block t of the gated messages of the whole arrays: the body's one store covers its
    buffer with the payload of the loaded blocks, the payload is the gated messages of those blocks (hpay), the weights
    and biases are the whole arrays, and the rows match. -/
theorem flushed_eq
    (hpay : ∀ (v0 : Vec Ideal S4000x128 .f32) (v2 : Vec Ideal S4000x112 .f32) (v4 : Vec Ideal S4000x17 .f32)
      (v10 v12 : Vec Ideal S256x64 .f32) (v15 v20 : Vec Ideal S64 .f32),
      k0_pay1 (F := Ideal) v0 v2 v4 v10 v12 v15 v20 = Cert.Spec.gated (R := 4000) v0 v2 v4 v10 v15 v12 v20)
    (c : Dev nD) (t : Fin cfg0.N) :
    (dat0 (F := Ideal) V c).flushed 7 t = ((cfg0.win 7).blk t).view.read (Elt Ideal)
      (Cert.Spec.gated (R := 1000000) (V c main_v18) (V c main_v25) (V c main_v41) (V c main_arg7) (V c main_arg8) (V c main_arg9) (V c main_arg10)) := by
  show (cfg0.win 7).cut (grid0.coords t) ((dat0 V c).after 7 t) = _
  rw [after0_7]
  unfold out0_7
  rw [View.canon_unit_zero zero2]
  simp only [View.ld_unit_zero (S := S4000x128) zero2, View.ld_unit_zero (S := S4000x112) zero2, View.ld_unit_zero (S := S4000x17) zero2,
    View.ld_unit_zero (S := S256x64) zero2, View.ld_unit_zero (S := S64) zero1]
  rw [hpay, weightF_eq V c t, biasF_eq V c t, weightS_eq V c t, biasS_eq V c t]
  funext y
  exact gated_block_apply V c t y

/-! ## The blocks tile the array -/

/-- An index of the output array is in point t's block iff each coordinate is in the block's range on its axis. -/
theorem mem_block (t : Fin cfg0.N) (i : S1000000x64.Idx) :
    i ∈ ((cfg0.win 7).blk t).view.set ↔ ∀ a : Fin 2, win0_7.index t a * S4000x64.size a ≤ (i a).val ∧ (i a).val < win0_7.index t a * S4000x64.size a + S4000x64.size a := by
  show i ∈ ((View.whole main_v42).slice (win0_7.rect t)).set ↔ _
  rw [View.set_slice_whole, Rect.mem_set_unit]
  exact Iff.rfl

/-- Row r of the output is in the block of point r / 4000, which is written back: 250 · 4000 = 1000000. -/
theorem covered (i : S1000000x64.Idx) : ∃ t : Fin cfg0.N, (cfg0.win 7).flush t = true ∧ i ∈ ((cfg0.win 7).blk t).view.set := by
  have hi0 : (i 0).val < 1000000 := (i 0).isLt
  have hi1 : (i 1).val < 64 := (i 1).isLt
  have hN : cfg0.N = 250 := Cert.KernelIdeal.GenP.N_0
  let t : Fin cfg0.N := ⟨(i 0).val / 4000, by rw [hN]; omega⟩
  obtain ⟨-, -, -, -, -, -, -, -, -, -, -, -, e0, e1⟩ := index_facts t
  have e0' : win0_7.index t (0 : Fin 2) = (i 0).val / 4000 := e0
  refine ⟨t, flush0_7 t, ?_⟩
  rw [mem_block]
  intro a
  match a with
  | ⟨0, _⟩ => show win0_7.index t (0 : Fin 2) * 4000 ≤ (i 0).val ∧ (i 0).val < win0_7.index t (0 : Fin 2) * 4000 + 4000; rw [e0']; omega
  | ⟨1, _⟩ => show win0_7.index t (1 : Fin 2) * 64 ≤ (i 1).val ∧ (i 1).val < win0_7.index t (1 : Fin 2) * 64 + 64; rw [e1]; omega

/-! ## The array -/

/-- After the 250 write-backs the output array is the gated messages of the arrays the call was entered with: every
    written block is a block of that one function, and the blocks cover the array. -/
theorem arr0_of
    (hpay : ∀ (v0 : Vec Ideal S4000x128 .f32) (v2 : Vec Ideal S4000x112 .f32) (v4 : Vec Ideal S4000x17 .f32)
      (v10 v12 : Vec Ideal S256x64 .f32) (v15 v20 : Vec Ideal S64 .f32),
      k0_pay1 (F := Ideal) v0 v2 v4 v10 v12 v15 v20 = Cert.Spec.gated (R := 4000) v0 v2 v4 v10 v15 v12 v20)
    (c : Dev nD) :
    (dat0 (F := Ideal) V c).arrAt 7 cfg0.N
      = Cert.Spec.gated (R := 1000000) (V c main_v18) (V c main_v25) (V c main_v41) (V c main_arg7) (V c main_arg8) (V c main_arg9) (V c main_arg10) :=
  (dat0 (F := Ideal) V c).arrAt_eq_of_cover 7
    (Cert.Spec.gated (R := 1000000) (V c main_v18) (V c main_v25) (V c main_v41) (V c main_arg7) (V c main_arg8) (V c main_arg9) (V c main_arg10))
    (fun t _ => flushed_eq V hpay c t) covered

end Cert.KernelIdeal.Reg0

end
-- ==== Proof.Region1.lean ====
/-
  The second kernel call's output array, from the contents its arrays have when the call is entered: block t of 4000 rows
  is what grid point t stores, the 50 blocks tile the 200000 rows, and a stored row depends on the same row of the
  row-indexed inputs, so the array is the specification's edge-network output of the whole input arrays.
-/
import proofs.«124080_j34437047779388_1_alg».proof.Proof.KernelIdealFrame
import proofs.«124080_j34437047779388_1_alg».proof.Proof.Spec
import Idealize.ShloMosaic.Lib.Pipeline.Value
import Idealize.ShloMosaic.Lib.ValueIdx

set_option maxRecDepth 16384

noncomputable section

namespace Cert.KernelIdeal.Reg1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.GenP

variable (V : (c : Dev nD) → (b : Ref sig .tc) → Buf (Elt Ideal) ((c : Thread nD τ).loc b))

/-! ## Where a block sits in its array -/

/-- The zero offsets of a rank-2 buffer, as a constant function. -/
theorem zero2 : (![0, 0] : Fin 2 → Nat) = fun _ => 0 := funext fun a => by fin_cases a <;> rfl
/-- The zero offset of a rank-1 buffer, as a constant function. -/
theorem zero1 : (![0] : Fin 1 → Nat) = fun _ => 0 := funext fun a => by fin_cases a <;> rfl

/-- The grid has 50 points. -/
theorem grid_lt (t : Fin cfg1.N) : t.val < 50 := Nat.lt_of_lt_of_eq t.isLt Cert.KernelIdeal.GenP.N_1

/-- The block indices at grid point t, decided over the 50 points: the two row-indexed inputs and the output are at
    block (t, 0); the two weight matrices and the two biases are always at block 0, the whole array. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-! ## The input blocks, read at an index

A block's element (r', k) sits in the array at row (block index) · 4000 + r' and column k: on each axis the coordinate is
the block index times the block's extent plus the coordinate inside the block. -/

/-- Row r' of the aggregated-feature block at point t is row 4000·t + r' of the aggregated-feature array. -/
theorem blockP_apply (c : Dev nD) (t : Fin cfg1.N) (r' : Fin 4000) (r : Fin 200000) (hr : r.val = t.val * 4000 + r'.val) (k : Fin 128) :
    (iblk1 V c 0 t : Vec Ideal S4000x128 .f32) (ix2 r' k) = (V c main_v51 : S200000x128.Idx → Ideal .f32) (ix2 r k) := by
  obtain ⟨e0, e1, -⟩ := index_facts t
  show V c main_v51 (((cfg1.win 0).blk t).view.emb (ix2 r' k)) = V c main_v51 (ix2 r k)
  congr 1
  funext a; apply Fin.ext
  match a with
  | ⟨0, _⟩ => show win1_0.index t (0 : Fin 2) * 4000 + 1 * r'.val = r.val; rw [e0, hr]; omega
  | ⟨1, _⟩ => show win1_0.index t (1 : Fin 2) * 128 + 1 * k.val = k.val; rw [e1]; omega

/-- Row r' of the edge-feature block at point t is row 4000·t + r' of the edge-feature array. -/
theorem blockE_apply (c : Dev nD) (t : Fin cfg1.N) (r' : Fin 4000) (r : Fin 200000) (hr : r.val = t.val * 4000 + r'.val) (k : Fin 112) :
    (iblk1 V c 1 t : Vec Ideal S4000x112 .f32) (ix2 r' k) = (V c main_arg1 : S200000x112.Idx → Ideal .f32) (ix2 r k) := by
  obtain ⟨-, -, e0, e1, -⟩ := index_facts t
  show V c main_arg1 (((cfg1.win 1).blk t).view.emb (ix2 r' k)) = V c main_arg1 (ix2 r k)
  congr 1
  funext a; apply Fin.ext
  match a with
  | ⟨0, _⟩ => show win1_1.index t (0 : Fin 2) * 4000 + 1 * r'.val = r.val; rw [e0, hr]; omega
  | ⟨1, _⟩ => show win1_1.index t (1 : Fin 2) * 112 + 1 * k.val = k.val; rw [e1]; omega

/-- The first layer's weights' block is the whole 240 × 128 matrix at every point. -/
theorem weight1_eq (c : Dev nD) (t : Fin cfg1.N) : (iblk1 V c 2 t : Vec Ideal S240x128 .f32) = (V c main_arg11 : S240x128.Idx → Ideal .f32) := by
  obtain ⟨-, -, -, -, e0, e1, -⟩ := index_facts t
  funext y
  show V c main_arg11 (((cfg1.win 2).blk t).view.emb y) = V c main_arg11 y
  congr 1
  funext a; apply Fin.ext
  match a with
  | ⟨0, _⟩ => show win1_2.index t (0 : Fin 2) * 240 + 1 * (y 0).val = (y 0).val; rw [e0]; omega
  | ⟨1, _⟩ => show win1_2.index t (1 : Fin 2) * 128 + 1 * (y 1).val = (y 1).val; rw [e1]; omega

/-- The first layer's bias's block is the whole vector of 128 at every point. -/
theorem bias1_eq (c : Dev nD) (t : Fin cfg1.N) : (iblk1 V c 3 t : Vec Ideal S128 .f32) = (V c main_arg12 : S128.Idx → Ideal .f32) := by
  obtain ⟨-, -, -, -, -, -, e0, -⟩ := index_facts t
  funext y
  show V c main_arg12 (((cfg1.win 3).blk t).view.emb y) = V c main_arg12 y
  congr 1
  funext a; apply Fin.ext
  match a with
  | ⟨0, _⟩ => show win1_3.index t (0 : Fin 1) * 128 + 1 * (y 0).val = (y 0).val; rw [e0]; omega

/-- The second layer's weights' block is the whole 128 × 144 matrix at every point. -/
theorem weight2_eq (c : Dev nD) (t : Fin cfg1.N) : (iblk1 V c 4 t : Vec Ideal S128x144 .f32) = (V c main_arg13 : S128x144.Idx → Ideal .f32) := by
  obtain ⟨-, -, -, -, -, -, -, e0, e1, -⟩ := index_facts t
  funext y
  show V c main_arg13 (((cfg1.win 4).blk t).view.emb y) = V c main_arg13 y
  congr 1
  funext a; apply Fin.ext
  match a with
  | ⟨0, _⟩ => show win1_4.index t (0 : Fin 2) * 128 + 1 * (y 0).val = (y 0).val; rw [e0]; omega
  | ⟨1, _⟩ => show win1_4.index t (1 : Fin 2) * 144 + 1 * (y 1).val = (y 1).val; rw [e1]; omega

/-- The second layer's bias's block is the whole vector of 144 at every point. -/
theorem bias2_eq (c : Dev nD) (t : Fin cfg1.N) : (iblk1 V c 5 t : Vec Ideal S144 .f32) = (V c main_arg14 : S144.Idx → Ideal .f32) := by
  obtain ⟨-, -, -, -, -, -, -, -, -, e0, -⟩ := index_facts t
  funext y
  show V c main_arg14 (((cfg1.win 5).blk t).view.emb y) = V c main_arg14 y
  congr 1
  funext a; apply Fin.ext
  match a with
  | ⟨0, _⟩ => show win1_5.index t (0 : Fin 1) * 144 + 1 * (y 0).val = (y 0).val; rw [e0]; omega

/-! ## The stored block is a block of the whole-array function -/

/-- Element (r', q) of the output block at point t sits in the output array at row 4000·t + r', column q. -/
theorem out_emb (t : Fin cfg1.N) (r' : Fin 4000) (q : Fin 144) (r : Fin 200000) (hr : r.val = t.val * 4000 + r'.val) :
    (((cfg1.win 6).blk t).view.emb (ix2 r' q) : S200000x144.Idx) = ix2 r q := by
  obtain ⟨-, -, -, -, -, -, -, -, -, -, e0, e1⟩ := index_facts t
  funext a; apply Fin.ext
  match a with
  | ⟨0, _⟩ => show win1_6.index t (0 : Fin 2) * 4000 + 1 * r'.val = r.val; rw [e0, hr]; omega
  | ⟨1, _⟩ => show win1_6.index t (1 : Fin 2) * 144 + 1 * q.val = q.val; rw [e1]; omega

/-- The edge network's output of the two input blocks at point t, at (r', q), is its output of the whole arrays at
    (4000·t + r', q): an output row depends on its own row of the row-indexed inputs only, and row r' of each block is
    row 4000·t + r' of its array. -/
theorem edgeOut_block_apply (c : Dev nD) (t : Fin cfg1.N) (y : S4000x144.Idx) :
    Cert.Spec.edgeOut (R := 4000) (iblk1 V c 0 t) (iblk1 V c 1 t) (V c main_arg11) (V c main_arg12) (V c main_arg13) (V c main_arg14) y
      = Cert.Spec.edgeOut (R := 200000) (V c main_v51) (V c main_arg1) (V c main_arg11) (V c main_arg12) (V c main_arg13) (V c main_arg14)
          (((cfg1.win 6).blk t).view.emb y) := by
  obtain ⟨p, q, rfl⟩ : ∃ (p : Fin 4000) (q : Fin 144), y = ix2 p q := ⟨y 0, y 1, eq_ix2 y⟩
  have hlt := grid_lt t
  rw [out_emb t p q ⟨t.val * 4000 + p.val, by omega⟩ rfl, Cert.Spec.edgeOut_apply, Cert.Spec.edgeOut_apply]
  exact Cert.Spec.edgeOutAt_congr _ _ _ _ _ _ _ _ p ⟨t.val * 4000 + p.val, by omega⟩
    (blockP_apply V c t p _ rfl) (blockE_apply V c t p _ rfl) q

/-- What point t writes back is block t of the edge network's output of the whole arrays: the body's one store covers
    its buffer with the payload of the loaded blocks, the payload is the edge network's output of those blocks (hpay),
    the weights and biases are the whole arrays, and the rows match. -/
theorem flushed_eq
    (hpay : ∀ (v0 : Vec Ideal S4000x128 .f32) (v2 : Vec Ideal S4000x112 .f32) (v5 : Vec Ideal S240x128 .f32)
      (v8 : Vec Ideal S128 .f32) (v15 : Vec Ideal S128x144 .f32) (v18 : Vec Ideal S144 .f32),
      k1_pay1 (F := Ideal) v0 v2 v5 v8 v15 v18 = Cert.Spec.edgeOut (R := 4000) v0 v2 v5 v8 v15 v18)
    (c : Dev nD) (t : Fin cfg1.N) :
    (dat1 (F := Ideal) V c).flushed 6 t = ((cfg1.win 6).blk t).view.read (Elt Ideal)
      (Cert.Spec.edgeOut (R := 200000) (V c main_v51) (V c main_arg1) (V c main_arg11) (V c main_arg12) (V c main_arg13) (V c main_arg14)) := by
  show (cfg1.win 6).cut (grid1.coords t) ((dat1 V c).after 6 t) = _
  rw [after1_6]
  unfold out1_6
  rw [View.canon_unit_zero zero2]
  simp only [View.ld_unit_zero (S := S4000x128) zero2, View.ld_unit_zero (S := S4000x112) zero2, View.ld_unit_zero (S := S240x128) zero2,
    View.ld_unit_zero (S := S128) zero1, View.ld_unit_zero (S := S128x144) zero2, View.ld_unit_zero (S := S144) zero1]
  rw [hpay, weight1_eq V c t, bias1_eq V c t, weight2_eq V c t, bias2_eq V c t]
  funext y
  exact edgeOut_block_apply V c t y

/-! ## The blocks tile the array -/

/-- An index of the output array is in point t's block iff each coordinate is in the block's range on its axis. -/
theorem mem_block (t : Fin cfg1.N) (i : S200000x144.Idx) :
    i ∈ ((cfg1.win 6).blk t).view.set ↔ ∀ a : Fin 2, win1_6.index t a * S4000x144.size a ≤ (i a).val ∧ (i a).val < win1_6.index t a * S4000x144.size a + S4000x144.size a := by
  show i ∈ ((View.whole main_v52).slice (win1_6.rect t)).set ↔ _
  rw [View.set_slice_whole, Rect.mem_set_unit]
  exact Iff.rfl

/-- Row r of the output is in the block of point r / 4000, which is written back: 50 · 4000 = 200000. -/
theorem covered (i : S200000x144.Idx) : ∃ t : Fin cfg1.N, (cfg1.win 6).flush t = true ∧ i ∈ ((cfg1.win 6).blk t).view.set := by
  have hi0 : (i 0).val < 200000 := (i 0).isLt
  have hi1 : (i 1).val < 144 := (i 1).isLt
  have hN : cfg1.N = 50 := Cert.KernelIdeal.GenP.N_1
  let t : Fin cfg1.N := ⟨(i 0).val / 4000, by rw [hN]; omega⟩
  obtain ⟨-, -, -, -, -, -, -, -, -, -, e0, e1⟩ := index_facts t
  have e0' : win1_6.index t (0 : Fin 2) = (i 0).val / 4000 := e0
  refine ⟨t, flush1_6 t, ?_⟩
  rw [mem_block]
  intro a
  match a with
  | ⟨0, _⟩ => show win1_6.index t (0 : Fin 2) * 4000 ≤ (i 0).val ∧ (i 0).val < win1_6.index t (0 : Fin 2) * 4000 + 4000; rw [e0']; omega
  | ⟨1, _⟩ => show win1_6.index t (1 : Fin 2) * 144 ≤ (i 1).val ∧ (i 1).val < win1_6.index t (1 : Fin 2) * 144 + 144; rw [e1]; omega

/-! ## The array -/

/-- After the 50 write-backs the output array is the edge network's output of the arrays the call was entered with:
    every written block is a block of that one function, and the blocks cover the array. -/
theorem arr1_of
    (hpay : ∀ (v0 : Vec Ideal S4000x128 .f32) (v2 : Vec Ideal S4000x112 .f32) (v5 : Vec Ideal S240x128 .f32)
      (v8 : Vec Ideal S128 .f32) (v15 : Vec Ideal S128x144 .f32) (v18 : Vec Ideal S144 .f32),
      k1_pay1 (F := Ideal) v0 v2 v5 v8 v15 v18 = Cert.Spec.edgeOut (R := 4000) v0 v2 v5 v8 v15 v18)
    (c : Dev nD) :
    (dat1 (F := Ideal) V c).arrAt 6 cfg1.N
      = Cert.Spec.edgeOut (R := 200000) (V c main_v51) (V c main_arg1) (V c main_arg11) (V c main_arg12) (V c main_arg13) (V c main_arg14) :=
  (dat1 (F := Ideal) V c).arrAt_eq_of_cover 6
    (Cert.Spec.edgeOut (R := 200000) (V c main_v51) (V c main_arg1) (V c main_arg11) (V c main_arg12) (V c main_arg13) (V c main_arg14))
    (fun t _ => flushed_eq V hpay c t) covered

end Cert.KernelIdeal.Reg1

end
-- ==== Proof.KernelValue.lean ====
/-
  The kernel program's result as one function of its arguments: the edge network (second call) applied to the two halves
  of the scattered sums of the gated messages (first call) of the gathered rows, and to the edge features.
-/
import proofs.«124080_j34437047779388_1_alg».proof.Proof.KernelIdealRun
import proofs.«124080_j34437047779388_1_alg».proof.Proof.HostK
import proofs.«124080_j34437047779388_1_alg».proof.Proof.Payload0
import proofs.«124080_j34437047779388_1_alg».proof.Proof.Payload1
import proofs.«124080_j34437047779388_1_alg».proof.Proof.Region0
import proofs.«124080_j34437047779388_1_alg».proof.Proof.Region1

set_option maxRecDepth 16384

noncomputable section

namespace Cert.KernelIdeal.ValueK

open Idealize.ShloMosaic Idealize.ShloMosaic.TcCoe
open Idealize.SL Idealize.SL.Sem
open Cert.KernelIdeal Cert.KernelIdeal.Gen Cert.KernelIdeal.GenP Cert.KernelIdeal.HostK

/-- The first call's output: the gated messages of the gathered atom pair, the gathered edge row and the angles with
    the decay column. -/
def messages (x0 : (⟨S50000x64, .f32⟩ : BufTy).Contents (Elt Ideal)) (x1 : (⟨S200000x112, .f32⟩ : BufTy).Contents (Elt Ideal)) (x2 : (⟨S1000000x2, .i32⟩ : BufTy).Contents (Elt Ideal)) (x3 : (⟨S1000000, .i32⟩ : BufTy).Contents (Elt Ideal)) (x4 : (⟨S1000000x16, .f32⟩ : BufTy).Contents (Elt Ideal)) (x6 : (⟨S200000, .f32⟩ : BufTy).Contents (Elt Ideal)) (x7 : (⟨S256x64, .f32⟩ : BufTy).Contents (Elt Ideal)) (x8 : (⟨S64, .f32⟩ : BufTy).Contents (Elt Ideal)) (x9 : (⟨S256x64, .f32⟩ : BufTy).Contents (Elt Ideal)) (x10 : (⟨S64, .f32⟩ : BufTy).Contents (Elt Ideal)) : (⟨S1000000x64, .f32⟩ : BufTy).Contents (Elt Ideal) :=
  Cert.Spec.gated (R := 1000000)
    (concatenate S1000000x128 1 [⟨S1000000x64, atom0 (F := Ideal) x0 x2⟩, ⟨S1000000x64, atom1 (F := Ideal) x0 x2⟩] concatenates_S1000000x64_S1000000x64_S1000000x128_d1)
    (edgeG (F := Ideal) x1 x3)
    (concatenate S1000000x17 1 [⟨S1000000x16, x4⟩, ⟨S1000000x1, decayCol (F := Ideal) x3 x6⟩] concatenates_S1000000x16_S1000000x1_S1000000x17_d1)
    x7 x8 x9 x10

/-- The program's result: the edge network of the two halves of the scattered sums, side by side, and the edge features. -/
def result (x0 : (⟨S50000x64, .f32⟩ : BufTy).Contents (Elt Ideal)) (x1 : (⟨S200000x112, .f32⟩ : BufTy).Contents (Elt Ideal)) (x2 : (⟨S1000000x2, .i32⟩ : BufTy).Contents (Elt Ideal)) (x3 : (⟨S1000000, .i32⟩ : BufTy).Contents (Elt Ideal)) (x4 : (⟨S1000000x16, .f32⟩ : BufTy).Contents (Elt Ideal)) (x5 : (⟨S1000000, .i32⟩ : BufTy).Contents (Elt Ideal)) (x6 : (⟨S200000, .f32⟩ : BufTy).Contents (Elt Ideal)) (x7 : (⟨S256x64, .f32⟩ : BufTy).Contents (Elt Ideal)) (x8 : (⟨S64, .f32⟩ : BufTy).Contents (Elt Ideal)) (x9 : (⟨S256x64, .f32⟩ : BufTy).Contents (Elt Ideal)) (x10 : (⟨S64, .f32⟩ : BufTy).Contents (Elt Ideal)) (x11 : (⟨S240x128, .f32⟩ : BufTy).Contents (Elt Ideal)) (x12 : (⟨S128, .f32⟩ : BufTy).Contents (Elt Ideal)) (x13 : (⟨S128x144, .f32⟩ : BufTy).Contents (Elt Ideal)) (x14 : (⟨S144, .f32⟩ : BufTy).Contents (Elt Ideal)) : (⟨S200000x144, .f32⟩ : BufTy).Contents (Elt Ideal) :=
  Cert.Spec.edgeOut (R := 200000)
    (concatenate S200000x128 1 [⟨S200000x64, half0 (F := Ideal) x5 (messages x0 x1 x2 x3 x4 x6 x7 x8 x9 x10)⟩, ⟨S200000x64, half1 (F := Ideal) x5 (messages x0 x1 x2 x3 x4 x6 x7 x8 x9 x10)⟩] concatenates_S200000x64_S200000x64_S200000x128_d1)
    x1 x11 x12 x13 x14

variable (m : (ℓ : Loc nD τ sig) → Buf (Elt Ideal) ℓ) (ρ : Dev nD → PrngReg)

/-- At the first call's exit its output array holds the messages of the launch's arguments. -/
theorem messages_eq (c : Dev nD) :
    W2 (F := Ideal) m ρ c (Proc.devRef .tc main_v42)
      = messages (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W2_arr m ρ c 7).trans ((Cert.KernelIdeal.Reg0.arr0_of (V1 m ρ) Cert.KernelIdeal.Pay0.pay0_eq c).trans ?_)
  rw [V1_main_v18, V1_main_v25, V1_main_v41, V1_main_arg7, V1_main_arg8, V1_main_arg9, V1_main_arg10]
  rfl

/-- What the second call leaves in its output array is the result function of the launch's arguments. -/
theorem result_eq (c : Dev nD) :
    (dat1 (F := Ideal) (V3 m ρ) c).arrAt 6 cfg1.N
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (Cert.KernelIdeal.Reg1.arr1_of (V3 m ρ) Cert.KernelIdeal.Pay1.pay1_eq c).trans ?_
  rw [V3_main_v51, V3_main_arg1, V3_main_arg11, V3_main_arg12, V3_main_arg13, V3_main_arg14, W2_main_arg5, messages_eq]
  rfl

/-- Every weakly fair execution of the kernel program ends with its result buffer at the result function of the
    arguments, the arguments as launched. -/
theorem run : θ_run (defs (F := Ideal)) (onTc (τ := τ) (main (F := Ideal))) ⟨m, fun _ => 0, ρ⟩ (fun r => ∀ c : Dev nD,
      r.2.mem ((c.tc : Thread nD τ).loc main_v52) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run (defs (F := Ideal)) _ _).mono (fun _ h c => ⟨(h c).1.trans (result_eq m ρ c), (h c).2⟩) (run_main (F := Ideal) m ρ)

end Cert.KernelIdeal.ValueK

end
-- ==== Proof.RefRunS.lean ====
/-
  The reference program's run, read in three stages. Its operations are cut before each of its two concatenates: the
  first piece computes the three row gathers, the second everything from the four-way concatenation to the two halves of the
  scattered sums, the third the edge network. Each piece's buffers are read against the stage values of the reference read
  operation by operation, a later piece taking the earlier pieces' buffers as given; joined, the result buffer holds the last
  stage's value of the arguments and every argument is as launched.
-/
import proofs.«124080_j34437047779388_1_alg».proof.Proof.RefOps
import proofs.«124080_j34437047779388_1_alg».proof.Proof.RefRead
import Idealize.ShloMosaic.Lib.StableHlo.Run
import Idealize.ShloMosaic.Lib.Pipeline.Frame

noncomputable section

namespace Cert.ReferenceIdeal.RunS

open Idealize.ShloMosaic Idealize.ShloMosaic.TcCoe Idealize.SL.Sem Idealize.ShloMosaic.StableHlo
open Cert.ReferenceIdeal Cert.ReferenceIdeal.Gen Cert.ReferenceIdeal.OpsP Cert.ReferenceIdeal.ReadP

variable {F : FTy → Type} [FloatOps F]

/-! ## First piece: the three row gathers

Over any starting contents V. None of these thirty-one operations writes an argument, and each gather's buffer depends
only on the arguments it reads: the node features and the index pairs for the two node gathers, the edge features and
the edge indices for the edge gather. -/

/-- The gather of node features by the first index column, as a function of the node features and the index pairs. -/
theorem stageA_v8 (V : Valuation τ sig (Elt F)) :
    after opsA V (Proc.devRef .tc main_v8) = val_main_v8 (F := F) (V (Proc.devRef .tc main_arg0)) (V (Proc.devRef .tc main_arg2)) := by
  dsimp only [opsA]
  after_results_simp
  rfl

/-- The gather of node features by the second index column, as a function of the node features and the index pairs. -/
theorem stageA_v17 (V : Valuation τ sig (Elt F)) :
    after opsA V (Proc.devRef .tc main_v17) = val_main_v17 (F := F) (V (Proc.devRef .tc main_arg0)) (V (Proc.devRef .tc main_arg2)) := by
  dsimp only [opsA]
  after_results_simp
  rfl

/-- The gather of edge features by the edge indices, as a function of the edge features and the edge indices. -/
theorem stageA_v24 (V : Valuation τ sig (Elt F)) :
    after opsA V (Proc.devRef .tc main_v24) = val_main_v24 (F := F) (V (Proc.devRef .tc main_arg1)) (V (Proc.devRef .tc main_arg3)) := by
  dsimp only [opsA]
  after_results_simp
  rfl

/-- The arguments the later pieces read are as they were. -/
theorem stageA_args (V : Valuation τ sig (Elt F)) :
    after opsA V (Proc.devRef .tc main_arg1) = V (Proc.devRef .tc main_arg1)
    ∧ after opsA V (Proc.devRef .tc main_arg3) = V (Proc.devRef .tc main_arg3)
    ∧ after opsA V (Proc.devRef .tc main_arg4) = V (Proc.devRef .tc main_arg4)
    ∧ after opsA V (Proc.devRef .tc main_arg5) = V (Proc.devRef .tc main_arg5)
    ∧ after opsA V (Proc.devRef .tc main_arg6) = V (Proc.devRef .tc main_arg6)
    ∧ after opsA V (Proc.devRef .tc main_arg7) = V (Proc.devRef .tc main_arg7)
    ∧ after opsA V (Proc.devRef .tc main_arg8) = V (Proc.devRef .tc main_arg8)
    ∧ after opsA V (Proc.devRef .tc main_arg9) = V (Proc.devRef .tc main_arg9)
    ∧ after opsA V (Proc.devRef .tc main_arg10) = V (Proc.devRef .tc main_arg10)
    ∧ after opsA V (Proc.devRef .tc main_arg11) = V (Proc.devRef .tc main_arg11)
    ∧ after opsA V (Proc.devRef .tc main_arg12) = V (Proc.devRef .tc main_arg12)
    ∧ after opsA V (Proc.devRef .tc main_arg13) = V (Proc.devRef .tc main_arg13)
    ∧ after opsA V (Proc.devRef .tc main_arg14) = V (Proc.devRef .tc main_arg14) := by
  dsimp only [opsA]
  refine ⟨?_, ?_, ?_, ?_, ?_, ?_, ?_, ?_, ?_, ?_, ?_, ?_, ?_⟩ <;> after_results_simp

/-! ## Second piece: from the four-way concatenation to the two halves of the scattered sums

Over any contents W in which the three gathers hold the first piece's values and the arguments read here hold
x3 … x10. The four operands of the concatenation are W at the three gather buffers and at the angular features; with
those replaced by their given values the composed term is, operation by operation, the stage value. -/

/-- The first half (slot 0 of each edge's pair of 64-wide sums). -/
theorem stageB_v64 (W : Valuation τ sig (Elt F)) (x0 : (⟨S50000x64, .f32⟩ : BufTy).Contents (Elt F)) (x1 : (⟨S200000x112, .f32⟩ : BufTy).Contents (Elt F)) (x2 : (⟨S1000000x2, .i32⟩ : BufTy).Contents (Elt F)) (x3 : (⟨S1000000, .i32⟩ : BufTy).Contents (Elt F)) (x4 : (⟨S1000000x16, .f32⟩ : BufTy).Contents (Elt F)) (x5 : (⟨S1000000, .i32⟩ : BufTy).Contents (Elt F)) (x6 : (⟨S200000, .f32⟩ : BufTy).Contents (Elt F)) (x7 : (⟨S256x64, .f32⟩ : BufTy).Contents (Elt F)) (x8 : (⟨S64, .f32⟩ : BufTy).Contents (Elt F)) (x9 : (⟨S256x64, .f32⟩ : BufTy).Contents (Elt F)) (x10 : (⟨S64, .f32⟩ : BufTy).Contents (Elt F))
    (h8 : W (Proc.devRef .tc main_v8) = val_main_v8 (F := F) x0 x2)
    (h17 : W (Proc.devRef .tc main_v17) = val_main_v17 (F := F) x0 x2)
    (h24 : W (Proc.devRef .tc main_v24) = val_main_v24 (F := F) x1 x3)
    (h3a : W (Proc.devRef .tc main_arg3) = x3) (h4a : W (Proc.devRef .tc main_arg4) = x4) (h5a : W (Proc.devRef .tc main_arg5) = x5) (h6a : W (Proc.devRef .tc main_arg6) = x6) (h7a : W (Proc.devRef .tc main_arg7) = x7) (h8a : W (Proc.devRef .tc main_arg8) = x8) (h9a : W (Proc.devRef .tc main_arg9) = x9) (h10a : W (Proc.devRef .tc main_arg10) = x10) :
    after opsB W (Proc.devRef .tc main_v64) = val_main_v64 (F := F) x0 x1 x2 x3 x4 x5 x6 x7 x8 x9 x10 := by
  dsimp only [opsB]
  after_results_simp
  simp only [TRef.ofBuf, TRef.toBuf, cast_eq]
  have e0 : W (Proc.devRef .tc ((![main_v8, main_v17, main_v24, main_arg4] : Fin 4 → Ref sig .tc) 0)) = W (Proc.devRef .tc main_v8) := rfl
  have e1 : W (Proc.devRef .tc ((![main_v8, main_v17, main_v24, main_arg4] : Fin 4 → Ref sig .tc) 1)) = W (Proc.devRef .tc main_v17) := rfl
  have e2 : W (Proc.devRef .tc ((![main_v8, main_v17, main_v24, main_arg4] : Fin 4 → Ref sig .tc) 2)) = W (Proc.devRef .tc main_v24) := rfl
  have e3 : W (Proc.devRef .tc ((![main_v8, main_v17, main_v24, main_arg4] : Fin 4 → Ref sig .tc) 3)) = W (Proc.devRef .tc main_arg4) := rfl
  rw [e0, e1, e2, e3, h8, h17, h24, h3a, h4a, h5a, h6a, h7a, h8a, h9a, h10a]
  rfl

/-- The second half (slot 1 of each edge's pair of 64-wide sums). -/
theorem stageB_v66 (W : Valuation τ sig (Elt F)) (x0 : (⟨S50000x64, .f32⟩ : BufTy).Contents (Elt F)) (x1 : (⟨S200000x112, .f32⟩ : BufTy).Contents (Elt F)) (x2 : (⟨S1000000x2, .i32⟩ : BufTy).Contents (Elt F)) (x3 : (⟨S1000000, .i32⟩ : BufTy).Contents (Elt F)) (x4 : (⟨S1000000x16, .f32⟩ : BufTy).Contents (Elt F)) (x5 : (⟨S1000000, .i32⟩ : BufTy).Contents (Elt F)) (x6 : (⟨S200000, .f32⟩ : BufTy).Contents (Elt F)) (x7 : (⟨S256x64, .f32⟩ : BufTy).Contents (Elt F)) (x8 : (⟨S64, .f32⟩ : BufTy).Contents (Elt F)) (x9 : (⟨S256x64, .f32⟩ : BufTy).Contents (Elt F)) (x10 : (⟨S64, .f32⟩ : BufTy).Contents (Elt F))
    (h8 : W (Proc.devRef .tc main_v8) = val_main_v8 (F := F) x0 x2)
    (h17 : W (Proc.devRef .tc main_v17) = val_main_v17 (F := F) x0 x2)
    (h24 : W (Proc.devRef .tc main_v24) = val_main_v24 (F := F) x1 x3)
    (h3a : W (Proc.devRef .tc main_arg3) = x3) (h4a : W (Proc.devRef .tc main_arg4) = x4) (h5a : W (Proc.devRef .tc main_arg5) = x5) (h6a : W (Proc.devRef .tc main_arg6) = x6) (h7a : W (Proc.devRef .tc main_arg7) = x7) (h8a : W (Proc.devRef .tc main_arg8) = x8) (h9a : W (Proc.devRef .tc main_arg9) = x9) (h10a : W (Proc.devRef .tc main_arg10) = x10) :
    after opsB W (Proc.devRef .tc main_v66) = val_main_v66 (F := F) x0 x1 x2 x3 x4 x5 x6 x7 x8 x9 x10 := by
  dsimp only [opsB]
  after_results_simp
  simp only [TRef.ofBuf, TRef.toBuf, cast_eq]
  have e0 : W (Proc.devRef .tc ((![main_v8, main_v17, main_v24, main_arg4] : Fin 4 → Ref sig .tc) 0)) = W (Proc.devRef .tc main_v8) := rfl
  have e1 : W (Proc.devRef .tc ((![main_v8, main_v17, main_v24, main_arg4] : Fin 4 → Ref sig .tc) 1)) = W (Proc.devRef .tc main_v17) := rfl
  have e2 : W (Proc.devRef .tc ((![main_v8, main_v17, main_v24, main_arg4] : Fin 4 → Ref sig .tc) 2)) = W (Proc.devRef .tc main_v24) := rfl
  have e3 : W (Proc.devRef .tc ((![main_v8, main_v17, main_v24, main_arg4] : Fin 4 → Ref sig .tc) 3)) = W (Proc.devRef .tc main_arg4) := rfl
  rw [e0, e1, e2, e3, h8, h17, h24, h3a, h4a, h5a, h6a, h7a, h8a, h9a, h10a]
  rfl

/-- The arguments the third piece reads are as they were. -/
theorem stageB_args (W : Valuation τ sig (Elt F)) :
    after opsB W (Proc.devRef .tc main_arg1) = W (Proc.devRef .tc main_arg1)
    ∧ after opsB W (Proc.devRef .tc main_arg11) = W (Proc.devRef .tc main_arg11)
    ∧ after opsB W (Proc.devRef .tc main_arg12) = W (Proc.devRef .tc main_arg12)
    ∧ after opsB W (Proc.devRef .tc main_arg13) = W (Proc.devRef .tc main_arg13)
    ∧ after opsB W (Proc.devRef .tc main_arg14) = W (Proc.devRef .tc main_arg14) := by
  dsimp only [opsB]
  refine ⟨?_, ?_, ?_, ?_, ?_⟩ <;> after_results_simp

/-! ## Third piece: the edge network

Over any contents W in which the two halves hold the second piece's values and the edge features, the two weight
matrices and the two biases hold x1, x11 … x14. The three operands of the concatenation are W at the two halves and at
the edge features. -/

/-- The result buffer after the edge network is the last stage's value. -/
theorem stageC (W : Valuation τ sig (Elt F)) (x0 : (⟨S50000x64, .f32⟩ : BufTy).Contents (Elt F)) (x1 : (⟨S200000x112, .f32⟩ : BufTy).Contents (Elt F)) (x2 : (⟨S1000000x2, .i32⟩ : BufTy).Contents (Elt F)) (x3 : (⟨S1000000, .i32⟩ : BufTy).Contents (Elt F)) (x4 : (⟨S1000000x16, .f32⟩ : BufTy).Contents (Elt F)) (x5 : (⟨S1000000, .i32⟩ : BufTy).Contents (Elt F)) (x6 : (⟨S200000, .f32⟩ : BufTy).Contents (Elt F)) (x7 : (⟨S256x64, .f32⟩ : BufTy).Contents (Elt F)) (x8 : (⟨S64, .f32⟩ : BufTy).Contents (Elt F)) (x9 : (⟨S256x64, .f32⟩ : BufTy).Contents (Elt F)) (x10 : (⟨S64, .f32⟩ : BufTy).Contents (Elt F)) (x11 : (⟨S240x128, .f32⟩ : BufTy).Contents (Elt F)) (x12 : (⟨S128, .f32⟩ : BufTy).Contents (Elt F)) (x13 : (⟨S128x144, .f32⟩ : BufTy).Contents (Elt F)) (x14 : (⟨S144, .f32⟩ : BufTy).Contents (Elt F))
    (h64 : W (Proc.devRef .tc main_v64) = val_main_v64 (F := F) x0 x1 x2 x3 x4 x5 x6 x7 x8 x9 x10)
    (h66 : W (Proc.devRef .tc main_v66) = val_main_v66 (F := F) x0 x1 x2 x3 x4 x5 x6 x7 x8 x9 x10)
    (h1 : W (Proc.devRef .tc main_arg1) = x1) (h11 : W (Proc.devRef .tc main_arg11) = x11) (h12 : W (Proc.devRef .tc main_arg12) = x12)
    (h13 : W (Proc.devRef .tc main_arg13) = x13) (h14 : W (Proc.devRef .tc main_arg14) = x14) :
    after opsC W (Proc.devRef .tc main_v76) = val_main_v76 (F := F) x0 x1 x2 x3 x4 x5 x6 x7 x8 x9 x10 x11 x12 x13 x14 := by
  dsimp only [opsC]
  after_results_simp
  simp only [TRef.ofBuf, TRef.toBuf, cast_eq]
  have e0 : W (Proc.devRef .tc ((![main_v64, main_v66, main_arg1] : Fin 3 → Ref sig .tc) 0)) = W (Proc.devRef .tc main_v64) := rfl
  have e1 : W (Proc.devRef .tc ((![main_v64, main_v66, main_arg1] : Fin 3 → Ref sig .tc) 1)) = W (Proc.devRef .tc main_v66) := rfl
  have e2 : W (Proc.devRef .tc ((![main_v64, main_v66, main_arg1] : Fin 3 → Ref sig .tc) 2)) = W (Proc.devRef .tc main_arg1) := rfl
  rw [e0, e1, e2, h64, h66, h1, h11, h12, h13, h14]
  rfl

/-! ## The three pieces joined

The contents after a concatenated list are the contents after the second list from the contents after the first; so
the third piece runs from the second piece's contents, which runs from the first piece's, each taking over exactly the
buffers named in its hypotheses. -/

/-- From any starting contents, the result buffer after all the operations is the last stage's value of the fifteen
    arguments' starting contents. -/
theorem value (V : Valuation τ sig (Elt F)) :
    after ops V (Proc.devRef .tc main_v76) = val_main_v76 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  rw [ops_split, StableHlo.after_append, StableHlo.after_append]
  have hA := stageA_args V
  have hB := stageB_args (after opsA V)
  have h64 := stageB_v64 (after opsA V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))
    (stageA_v8 V) (stageA_v17 V) (stageA_v24 V) (hA.2.1) (hA.2.2.1) (hA.2.2.2.1) (hA.2.2.2.2.1) (hA.2.2.2.2.2.1) (hA.2.2.2.2.2.2.1) (hA.2.2.2.2.2.2.2.1) (hA.2.2.2.2.2.2.2.2.1)
  have h66 := stageB_v66 (after opsA V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))
    (stageA_v8 V) (stageA_v17 V) (stageA_v24 V) (hA.2.1) (hA.2.2.1) (hA.2.2.2.1) (hA.2.2.2.2.1) (hA.2.2.2.2.2.1) (hA.2.2.2.2.2.2.1) (hA.2.2.2.2.2.2.2.1) (hA.2.2.2.2.2.2.2.2.1)
  exact stageC (after opsB (after opsA V)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) h64 h66
    ((hB.1).trans (hA.1)) ((hB.2.1).trans (hA.2.2.2.2.2.2.2.2.2.1)) ((hB.2.2.1).trans (hA.2.2.2.2.2.2.2.2.2.2.1)) ((hB.2.2.2.1).trans (hA.2.2.2.2.2.2.2.2.2.2.2.1)) ((hB.2.2.2.2).trans (hA.2.2.2.2.2.2.2.2.2.2.2.2))

set_option maxRecDepth 8192 in
set_option maxHeartbeats 44400000 in
/-- Every weakly fair execution of the reference ends with its result buffer at the last stage's value of the
    arguments, the arguments as launched. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v76) = val_main_v76 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c main_v76).trans (value (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl)⟩)
    (run_seq scopedRefs_eq scopedSems_eq defs main (fun _ => ops) main_eq (fun _ => ops_sub) m ρ)

end Cert.ReferenceIdeal.RunS

end
-- ==== Proof.RefGated.lean ====
/-
  The reference's gated messages — the product of the sigmoid branch, the softplus branch and the distance decay, before
  the scatter — are the specification's gated messages of the gathered arrays: the four-way concatenation of the two atom
  gathers, the edge gather and the angles is the specification's feature row once the two atom gathers are joined, and the
  decay, broadcast along the row, is the 17th column once it is joined to the angles.

  At row r and column q the reference computes
      (1 / (1 + e^(−u))) · softplus(v) · decay(r),   u = Σ_k z(r,k)·Wf(k,q) + bf(q),   v = Σ_k z(r,k)·Ws(k,q) + bs(q),
  with z(r,·) the 256-column row [atom gather one (64) | atom gather two (64) | edge gather (112) | angles (16)].
  The steps: z(r,k) is the specification's feature row column by column (four spans of k); the two biases, laid along
  the rows by two broadcasts, read the bias vector at q; 1 / (1 + e^(−u)) is the logistic function by definition; the
  softplus call's comparison of a number with itself for inequality is false on the extended reals, so its selection
  takes the stable form max(v, 0) + log(1 + e^(−|v − 0|)); the decay broadcast along the row reads the decay column at
  row r, which is column 16 of the angles joined with that column.
-/
import proofs.«124080_j34437047779388_1_alg».proof.Proof.RefRead
import proofs.«124080_j34437047779388_1_alg».proof.Proof.Spec
import proofs.«124080_j34437047779388_1_alg».proof.Proof.LibPlainDot
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.Stage1

open Idealize.ShloMosaic Idealize.ShloMosaic.ValueIdx Cert.ReferenceIdeal Cert.ReferenceIdeal.Gen Cert.ReferenceIdeal.ReadP
open scoped BigOperators

/-! ## The feature row -/

section Row

variable (a0 a1 : FVec Ideal S1000000x64 .f32) (e : FVec Ideal S1000000x112 .f32) (x4 : FVec Ideal S1000000x16 .f32)
  (d : FVec Ideal S1000000x1 .f32)
  (hC : Shape.Concatenates [S1000000x64, S1000000x64, S1000000x112, S1000000x16] S1000000x256 1)
  (hP : Shape.Concatenates [S1000000x64, S1000000x64] ⟨2, ![1000000, 128]⟩ 1)
  (hD : Shape.Concatenates [S1000000x16, S1000000x1] ⟨2, ![1000000, 17]⟩ 1)

/-- The four-way concatenation [a0 | a1 | e | x4] along the columns, at (r, k), is the specification's feature row of
    A = [a0 | a1], E = e and D = [x4 | d]: for k < 64 both sides read a0 at (r, k); for 64 ≤ k < 128 both read a1 at
    (r, k − 64); for 128 ≤ k < 240 both read e at (r, k − 128); for 240 ≤ k both read x4 at (r, k − 240), a column below
    16 and so in the left piece of D. The column d of D is never read. -/
theorem row_apply (r : Fin 1000000) (k : Fin 256) :
    concatenate S1000000x256 1 [⟨S1000000x64, a0⟩, ⟨S1000000x64, a1⟩, ⟨S1000000x112, e⟩, ⟨S1000000x16, x4⟩] hC (ix2 r k)
      = Cert.Spec.gateIn (R := 1000000) (concatenate ⟨2, ![1000000, 128]⟩ 1 [⟨S1000000x64, a0⟩, ⟨S1000000x64, a1⟩] hP) e
          (concatenate ⟨2, ![1000000, 17]⟩ 1 [⟨S1000000x16, x4⟩, ⟨S1000000x1, d⟩] hD) r k := by
  unfold Cert.Spec.gateIn
  by_cases h1 : k.val < 128
  · rw [dif_pos h1]
    by_cases h0 : k.val < 64
    · -- k < 64: piece 0 of the four, after no columns; the left piece of A
      refine (concatenate_apply_piece (t := S1000000x256) 1
        [⟨S1000000x64, a0⟩, ⟨S1000000x64, a1⟩, ⟨S1000000x112, e⟩, ⟨S1000000x16, x4⟩] hC (ix2 r k) 0 (by simp)
        S1000000x64 a0 rfl rfl 0 rfl (ix2 r ⟨k.val, h0⟩) (fun b hb => ?_) ?_).trans
        (concatenate_pair_apply_left (t := ⟨2, ![1000000, 128]⟩) 1 a0 a1 hP (ix2 r ⟨k.val, h1⟩) rfl (ix2 r ⟨k.val, h0⟩) (fun b => ?_)).symm
      · match b, hb with
        | ⟨0, _⟩, _ => rfl
        | ⟨1, _⟩, hb => exact absurd rfl hb
      · show 0 + k.val = k.val
        omega
      · match b with
        | ⟨0, _⟩ => rfl
        | ⟨1, _⟩ => rfl
    · -- 64 ≤ k < 128: piece 1 of the four, after 64 columns; the right piece of A, after 64 columns
      have h0' : k.val - 64 < 64 := by omega
      refine (concatenate_apply_piece (t := S1000000x256) 1
        [⟨S1000000x64, a0⟩, ⟨S1000000x64, a1⟩, ⟨S1000000x112, e⟩, ⟨S1000000x16, x4⟩] hC (ix2 r k) 1 (by simp)
        S1000000x64 a1 rfl rfl 64 rfl (ix2 r ⟨k.val - 64, h0'⟩) (fun b hb => ?_) ?_).trans
        (concatenate_pair_apply_right (t := ⟨2, ![1000000, 128]⟩) 1 a0 a1 hP (ix2 r ⟨k.val, h1⟩) rfl rfl (ix2 r ⟨k.val - 64, h0'⟩)
          (fun b hb => ?_) ?_).symm
      · match b, hb with
        | ⟨0, _⟩, _ => rfl
        | ⟨1, _⟩, hb => exact absurd rfl hb
      · show 64 + (k.val - 64) = k.val
        omega
      · match b, hb with
        | ⟨0, _⟩, _ => rfl
        | ⟨1, _⟩, hb => exact absurd rfl hb
      · show k.val - 64 + 64 = k.val
        omega
  · rw [dif_neg h1]
    by_cases h2 : k.val < 240
    · -- 128 ≤ k < 240: piece 2 of the four, after 64 + 64 columns
      rw [dif_pos h2]
      refine concatenate_apply_piece (t := S1000000x256) 1
        [⟨S1000000x64, a0⟩, ⟨S1000000x64, a1⟩, ⟨S1000000x112, e⟩, ⟨S1000000x16, x4⟩] hC (ix2 r k) 2 (by simp)
        S1000000x112 e rfl rfl 128 rfl (ix2 r ⟨k.val - 128, by omega⟩) (fun b hb => ?_) ?_
      · match b, hb with
        | ⟨0, _⟩, _ => rfl
        | ⟨1, _⟩, hb => exact absurd rfl hb
      · show 128 + (k.val - 128) = k.val
        omega
    · -- 240 ≤ k: piece 3 of the four, after 64 + 64 + 112 columns; the left piece of D
      rw [dif_neg h2]
      have h3 : k.val - 240 < 16 := by have := k.isLt; omega
      refine (concatenate_apply_piece (t := S1000000x256) 1
        [⟨S1000000x64, a0⟩, ⟨S1000000x64, a1⟩, ⟨S1000000x112, e⟩, ⟨S1000000x16, x4⟩] hC (ix2 r k) 3 (by simp)
        S1000000x16 x4 rfl rfl 240 rfl (ix2 r ⟨k.val - 240, h3⟩) (fun b hb => ?_) ?_).trans
        (concatenate_pair_apply_left (t := ⟨2, ![1000000, 17]⟩) 1 x4 d hD (ix2 r ⟨k.val - 240, by omega⟩) rfl (ix2 r ⟨k.val - 240, h3⟩) (fun b => ?_)).symm
      · match b, hb with
        | ⟨0, _⟩, _ => rfl
        | ⟨1, _⟩, hb => exact absurd rfl hb
      · show 240 + (k.val - 240) = k.val
        omega
      · match b with
        | ⟨0, _⟩ => rfl
        | ⟨1, _⟩ => rfl

/-- Column 16 of the angles joined with the decay column is that column at its one position: 16 = 0 + 16 lies in the
    right piece, after the 16 angle columns. -/
theorem decay_apply (r : Fin 1000000) :
    concatenate ⟨2, ![1000000, 17]⟩ 1 [⟨S1000000x16, x4⟩, ⟨S1000000x1, d⟩] hD (ix2 r (16 : Fin 17)) = d (ix2 r (0 : Fin 1)) := by
  refine concatenate_pair_apply_right (t := ⟨2, ![1000000, 17]⟩) 1 x4 d hD (ix2 r (16 : Fin 17)) rfl rfl (ix2 r (0 : Fin 1))
    (fun b hb => ?_) rfl
  match b, hb with
  | ⟨0, _⟩, _ => rfl
  | ⟨1, _⟩, hb => exact absurd rfl hb

end Row

/-! ## The reference's operand indices at explicit coordinates

  At the output index (r, q) and contraction coordinate k the two products read their left operand at (r, k) and their
  right operand at (k, q); the bias laid along the rows reads the vector at q; the decay laid along the row reads the
  column at (r, 0). -/

theorem lidx26_eq (r : Fin 1000000) (q : Fin 64) (k : Fin 256) : lidx_main_v26 (ix2 r q) k = ix2 r k := by
  funext a
  match a with
  | ⟨0, _⟩ => rfl
  | ⟨1, _⟩ => rfl

theorem ridx26_eq (r : Fin 1000000) (q : Fin 64) (k : Fin 256) : ridx_main_v26 (ix2 r q) k = ix2 k q := by
  funext a
  match a with
  | ⟨0, _⟩ => rfl
  | ⟨1, _⟩ => rfl

theorem lidx36_eq (r : Fin 1000000) (q : Fin 64) (k : Fin 256) : lidx_main_v36 (ix2 r q) k = ix2 r k := by
  funext a
  match a with
  | ⟨0, _⟩ => rfl
  | ⟨1, _⟩ => rfl

theorem ridx36_eq (r : Fin 1000000) (q : Fin 64) (k : Fin 256) : ridx_main_v36 (ix2 r q) k = ix2 k q := by
  funext a
  match a with
  | ⟨0, _⟩ => rfl
  | ⟨1, _⟩ => rfl

theorem idx27_eq (r : Fin 1000000) (q : Fin 64) : idx_main_v27 (idx_main_v28 (ix2 r q)) = ix1 q := by
  funext a
  match a with
  | ⟨0, _⟩ => rfl

theorem idx37_eq (r : Fin 1000000) (q : Fin 64) : idx_main_v37 (idx_main_v38 (ix2 r q)) = ix1 q := by
  funext a
  match a with
  | ⟨0, _⟩ => rfl

theorem idx57_eq (r : Fin 1000000) (q : Fin 64) : idx_main_v57 (ix2 r q) = ix2 r (0 : Fin 1) := by
  funext a
  match a with
  | ⟨0, _⟩ => rfl
  | ⟨1, _⟩ => rfl

section Stages

variable (x0 : (⟨S50000x64, .f32⟩ : BufTy).Contents (Elt Ideal)) (x1 : (⟨S200000x112, .f32⟩ : BufTy).Contents (Elt Ideal))
  (x2 : (⟨S1000000x2, .i32⟩ : BufTy).Contents (Elt Ideal)) (x3 : (⟨S1000000, .i32⟩ : BufTy).Contents (Elt Ideal))
  (x4 : (⟨S1000000x16, .f32⟩ : BufTy).Contents (Elt Ideal)) (x6 : (⟨S200000, .f32⟩ : BufTy).Contents (Elt Ideal))
  (x7 : (⟨S256x64, .f32⟩ : BufTy).Contents (Elt Ideal)) (x8 : (⟨S64, .f32⟩ : BufTy).Contents (Elt Ideal))
  (x9 : (⟨S256x64, .f32⟩ : BufTy).Contents (Elt Ideal)) (x10 : (⟨S64, .f32⟩ : BufTy).Contents (Elt Ideal))
  (hP : Shape.Concatenates [S1000000x64, S1000000x64] ⟨2, ![1000000, 128]⟩ 1)
  (hD : Shape.Concatenates [S1000000x16, S1000000x1] ⟨2, ![1000000, 17]⟩ 1)

/-! ## The two pre-activations -/

/-- The sigmoid branch's pre-activation at (r, q): Σ_k z(r,k)·Wf(k,q) + bf(q), the row z(r,·) read as the
    specification's feature row. The three gathers and the decay column enter as whole arrays and are not opened. -/
theorem preF_apply (r : Fin 1000000) (q : Fin 64) :
    val_main_v29 (F := Ideal) x0 x1 x2 x3 x4 x7 x8 (ix2 r q)
      = ∑ k : Fin 256, Cert.Spec.gateIn (R := 1000000)
            (concatenate ⟨2, ![1000000, 128]⟩ 1 [⟨S1000000x64, val_main_v8 (F := Ideal) x0 x2⟩, ⟨S1000000x64, val_main_v17 (F := Ideal) x0 x2⟩] hP)
            (val_main_v24 (F := Ideal) x1 x3)
            (concatenate ⟨2, ![1000000, 17]⟩ 1 [⟨S1000000x16, x4⟩, ⟨S1000000x1, val_main_v56 (F := Ideal) x3 x6⟩] hD) r k * x7 (ix2 k q)
          + x8 (ix1 q) := by
  rw [val_main_v29_apply, val_main_v26_apply, val_main_v28_apply, val_main_v27_apply, idx27_eq]
  unfold val_main_v25
  generalize val_main_v8 (F := Ideal) x0 x2 = a0
  generalize val_main_v17 (F := Ideal) x0 x2 = a1
  generalize val_main_v24 (F := Ideal) x1 x3 = e
  generalize val_main_v56 (F := Ideal) x3 x6 = d
  simp only [lidx26_eq, ridx26_eq, row_apply a0 a1 e x4 d _ hP hD]
  rfl

/-- The softplus branch's pre-activation at (r, q): Σ_k z(r,k)·Ws(k,q) + bs(q), over the same row. -/
theorem preS_apply (r : Fin 1000000) (q : Fin 64) :
    val_main_v39 (F := Ideal) x0 x1 x2 x3 x4 x9 x10 (ix2 r q)
      = ∑ k : Fin 256, Cert.Spec.gateIn (R := 1000000)
            (concatenate ⟨2, ![1000000, 128]⟩ 1 [⟨S1000000x64, val_main_v8 (F := Ideal) x0 x2⟩, ⟨S1000000x64, val_main_v17 (F := Ideal) x0 x2⟩] hP)
            (val_main_v24 (F := Ideal) x1 x3)
            (concatenate ⟨2, ![1000000, 17]⟩ 1 [⟨S1000000x16, x4⟩, ⟨S1000000x1, val_main_v56 (F := Ideal) x3 x6⟩] hD) r k * x9 (ix2 k q)
          + x10 (ix1 q) := by
  rw [val_main_v39_apply, val_main_v36_apply, val_main_v38_apply, val_main_v37_apply, idx37_eq]
  unfold val_main_v25
  generalize val_main_v8 (F := Ideal) x0 x2 = a0
  generalize val_main_v17 (F := Ideal) x0 x2 = a1
  generalize val_main_v24 (F := Ideal) x1 x3 = e
  generalize val_main_v56 (F := Ideal) x3 x6 = d
  simp only [lidx36_eq, ridx36_eq, row_apply a0 a1 e x4 d _ hP hD]
  rfl

/-! ## The two activations and the decay -/

/-- 1 / (1 + e^(−u)), with the literal 1 the extended real one and the sum written 1 + e, is the logistic function of u
    by definition. -/
theorem sigmoid_apply (i : S1000000x64.Idx) :
    val_main_v35 (F := Ideal) x0 x1 x2 x3 x4 x7 x8 i = Ideal.logistic (val_main_v29 (F := Ideal) x0 x1 x2 x3 x4 x7 x8 i) := by
  rw [val_main_v35_apply, val_main_v34_apply, val_main_cst_5_apply, val_main_v33_apply, val_main_v32_apply, val_main_cst_apply,
    val_main_v31_apply, val_main_v30_apply]
  generalize val_main_v29 (F := Ideal) x0 x1 x2 x3 x4 x7 x8 i = u
  rw [Ideal.ofBits_def, Ideal.ofBits_one_f32, Ideal.hostDivf_def, Ideal.addf_def, Ideal.hostUnary_exp_def, Ideal.hostNegf_def, Ideal.negf_def]
  rfl

/-- On the extended reals no number differs from itself. -/
theorem cmp_une_self (y : EReal) : Ideal.cmp .une y y = 0#1 := by
  simp [Ideal.cmp]

/-- The softplus call at v: its selection is on v − 0 ≠ v − 0, which is false, so it takes its last operand,
    max(v, 0) + log(1 + e^(−|v − 0|)) with |y| = max(y, −y) and the literal 0 the extended real zero: the
    specification's softplus of v. The operand v + 0 of the branch not taken is left as it is. -/
theorem softplus_apply (i : S1000000x64.Idx) :
    val_main_v40 (F := Ideal) x0 x1 x2 x3 x4 x9 x10 i = Cert.Spec.softplus (val_main_v39 (F := Ideal) x0 x1 x2 x3 x4 x9 x10 i) := by
  rw [val_main_v40_apply, val_main_call0_v4_apply, val_main_call0_v11_apply, val_main_call0_v1_apply, val_main_call0_v10_apply,
    val_main_call0_v9_apply, val_main_call0_v8_apply, val_main_call0_v7_apply, val_main_call0_v3_apply, val_main_call0_v2_apply,
    val_main_call0_v0_apply, val_main_call0_cst_apply]
  generalize val_main_call0_v6 (F := Ideal) x0 x1 x2 x3 x4 x9 x10 i = w
  generalize val_main_v39 (F := Ideal) x0 x1 x2 x3 x4 x9 x10 i = v
  rw [Ideal.cmpf_def, cmp_une_self, select_zero, Ideal.ofBits_def, Ideal.ofBits_zero_f32]
  rfl

/-- The decay laid along row r reads the decay column at (r, 0): column 16 of the angles joined with that column. -/
theorem decayB_apply (r : Fin 1000000) (q : Fin 64) :
    val_main_v57 (F := Ideal) x3 x6 (ix2 r q)
      = concatenate ⟨2, ![1000000, 17]⟩ 1 [⟨S1000000x16, x4⟩, ⟨S1000000x1, val_main_v56 (F := Ideal) x3 x6⟩] hD (ix2 r (16 : Fin 17)) := by
  rw [val_main_v57_apply, idx57_eq]
  generalize val_main_v56 (F := Ideal) x3 x6 = d
  exact (decay_apply x4 d hD r).symm

end Stages

/-! ## The gated messages -/

/-- The reference's product (sigmoid · softplus) · decay is, index by index, the specification's gate of the two
    pre-activations and column 16 of the angle-and-decay array. -/
theorem gated_eq (x0 : (⟨S50000x64, .f32⟩ : BufTy).Contents (Elt Ideal)) (x1 : (⟨S200000x112, .f32⟩ : BufTy).Contents (Elt Ideal)) (x2 : (⟨S1000000x2, .i32⟩ : BufTy).Contents (Elt Ideal)) (x3 : (⟨S1000000, .i32⟩ : BufTy).Contents (Elt Ideal)) (x4 : (⟨S1000000x16, .f32⟩ : BufTy).Contents (Elt Ideal))
    (x6 : (⟨S200000, .f32⟩ : BufTy).Contents (Elt Ideal)) (x7 : (⟨S256x64, .f32⟩ : BufTy).Contents (Elt Ideal)) (x8 : (⟨S64, .f32⟩ : BufTy).Contents (Elt Ideal)) (x9 : (⟨S256x64, .f32⟩ : BufTy).Contents (Elt Ideal)) (x10 : (⟨S64, .f32⟩ : BufTy).Contents (Elt Ideal))
    (hP : Shape.Concatenates [S1000000x64, S1000000x64] ⟨2, ![1000000, 128]⟩ 1)
    (hD : Shape.Concatenates [S1000000x16, S1000000x1] ⟨2, ![1000000, 17]⟩ 1) :
    val_main_v58 (F := Ideal) x0 x1 x2 x3 x4 x6 x7 x8 x9 x10
      = Cert.Spec.gated (R := 1000000)
          (concatenate ⟨2, ![1000000, 128]⟩ 1 [⟨S1000000x64, val_main_v8 (F := Ideal) x0 x2⟩, ⟨S1000000x64, val_main_v17 (F := Ideal) x0 x2⟩] hP)
          (val_main_v24 (F := Ideal) x1 x3)
          (concatenate ⟨2, ![1000000, 17]⟩ 1 [⟨S1000000x16, x4⟩, ⟨S1000000x1, val_main_v56 (F := Ideal) x3 x6⟩] hD)
          x7 x8 x9 x10 := by
  funext i
  obtain ⟨r, q, rfl⟩ : ∃ (r : Fin 1000000) (q : Fin 64), i = ix2 r q := ⟨i 0, i 1, eq_ix2 i⟩
  rw [Cert.Spec.gated_apply, val_main_v58_apply, val_main_v41_apply, sigmoid_apply, softplus_apply,
    preF_apply x0 x1 x2 x3 x4 x6 x7 x8 hP hD, preS_apply x0 x1 x2 x3 x4 x6 x9 x10 hP hD, decayB_apply x3 x4 x6 hD]
  rfl

end Cert.ReferenceIdeal.Stage1

end
-- ==== Proof.RefEdge.lean ====
/-
  The reference's result — the edge network applied to the three-way concatenation of the two halves of the scattered sums
  and the edge features — is the specification's edge-network output of the two halves joined and the edge features; the
  scattered sums themselves are never opened.

  At row r and column q the result is  Σ_k hid(r,k)·W2(k,q) + b2(q)  with  hid(r,k) = x · (1 / (1 + e^(−x))),
  x = Σ_l h(r,l)·W1(l,k) + b1(k),  and h(r,·) the row of 240 entries [first half (64) | second half (64) | edge
  features (112)].  The specification's row is [the two halves joined (128) | edge features (112)]: the same 240 numbers.
-/
import proofs.«124080_j34437047779388_1_alg».proof.Proof.RefRead
import proofs.«124080_j34437047779388_1_alg».proof.Proof.Spec
import proofs.«124080_j34437047779388_1_alg».proof.Proof.LibPlainDot
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.Stage2

open Idealize.ShloMosaic Idealize.ShloMosaic.ValueIdx Cert.ReferenceIdeal Cert.ReferenceIdeal.Gen Cert.ReferenceIdeal.ReadP
open scoped BigOperators

/-! ## The input row: three pieces against two -/

/-- Entry (r, l) of the three-way concatenation [a (64) | b (64) | e (112)] along the columns is entry l of the
    specification's input row built from the two-way concatenation [a | b] (128 columns) and e.
    For l < 64 both read a at (r, l); for 64 ≤ l < 128 both read b at (r, l − 64); for 128 ≤ l both read e at
    (r, l − 128). The row coordinate is untouched by a concatenation along the columns. -/
theorem cat3_apply (a b : S200000x64.Idx → EReal) (e : S200000x112.Idx → EReal)
    (h3 : Shape.Concatenates [S200000x64, S200000x64, S200000x112] S200000x240 1)
    (hP : Shape.Concatenates [S200000x64, S200000x64] ⟨2, ![200000, 128]⟩ 1)
    (r : Fin 200000) (l : Fin 240) :
    concatenate S200000x240 1 [⟨S200000x64, a⟩, ⟨S200000x64, b⟩, ⟨S200000x112, e⟩] h3 (ix2 r l)
      = Cert.Spec.mlpIn (concatenate ⟨2, ![200000, 128]⟩ 1 [⟨S200000x64, a⟩, ⟨S200000x64, b⟩] hP) e r l := by
  unfold Cert.Spec.mlpIn
  by_cases h1 : l.val < 64
  · -- l < 64: piece 0 of the three, offset 0; the left piece of the two
    rw [dif_pos (show l.val < 128 by omega)]
    rw [concatenate_apply_piece (t := S200000x240) 1 [⟨S200000x64, a⟩, ⟨S200000x64, b⟩, ⟨S200000x112, e⟩] h3 (ix2 r l) 0 (show 0 < 3 by omega) S200000x64 a rfl rfl 0 rfl (ix2 r ⟨l.val, h1⟩)
      (fun c hc => by
        match c with
        | ⟨0, _⟩ => rfl
        | ⟨1, _⟩ => exact absurd rfl hc)
      (by show 0 + l.val = l.val; omega)]
    rw [concatenate_pair_apply_left 1 a b hP (ix2 r ⟨l.val, show l.val < 128 by omega⟩) rfl (ix2 r ⟨l.val, h1⟩)
      (fun c => by
        match c with
        | ⟨0, _⟩ => rfl
        | ⟨1, _⟩ => rfl)]
  · by_cases h2 : l.val < 128
    · -- 64 ≤ l < 128: piece 1 of the three, offset 64; the right piece of the two, the left extent 64 less
      rw [dif_pos h2]
      rw [concatenate_apply_piece (t := S200000x240) 1 [⟨S200000x64, a⟩, ⟨S200000x64, b⟩, ⟨S200000x112, e⟩] h3 (ix2 r l) 1 (show 1 < 3 by omega) S200000x64 b rfl rfl 64 rfl (ix2 r ⟨l.val - 64, by omega⟩)
        (fun c hc => by
          match c with
          | ⟨0, _⟩ => rfl
          | ⟨1, _⟩ => exact absurd rfl hc)
        (by show 64 + (l.val - 64) = l.val; omega)]
      rw [concatenate_pair_apply_right 1 a b hP (ix2 r ⟨l.val, h2⟩) rfl rfl (ix2 r ⟨l.val - 64, by omega⟩)
        (fun c hc => by
          match c with
          | ⟨0, _⟩ => rfl
          | ⟨1, _⟩ => exact absurd rfl hc)
        (by show (l.val - 64) + 64 = l.val; omega)]
    · -- 128 ≤ l: piece 2 of the three, offset 64 + 64 = 128; the specification reads e at l − 128
      rw [dif_neg h2]
      exact concatenate_apply_piece (t := S200000x240) 1 [⟨S200000x64, a⟩, ⟨S200000x64, b⟩, ⟨S200000x112, e⟩] h3 (ix2 r l) 2 (show 2 < 3 by omega) S200000x112 e rfl rfl 128 rfl (ix2 r ⟨l.val - 128, by omega⟩)
        (fun c hc => by
          match c with
          | ⟨0, _⟩ => rfl
          | ⟨1, _⟩ => exact absurd rfl hc)
        (by show 128 + (l.val - 128) = l.val; omega)

/-! ## The operand indices of the two products and the two biases, in coordinates

For a product "rows × contraction times contraction × columns" at output (r, q) and contraction coordinate k the
operands are read at (r, k) and (k, q); a vector laid along the columns of a matrix is read, at (r, q), at q. -/

private theorem lidx73 (r : Fin 200000) (q : Fin 144) (k : Fin 128) : lidx_main_v73 (ix2 r q) k = ix2 r k := by
  funext a
  match a with
  | ⟨0, _⟩ => rfl
  | ⟨1, _⟩ => rfl

private theorem ridx73 (r : Fin 200000) (q : Fin 144) (k : Fin 128) : ridx_main_v73 (ix2 r q) k = ix2 k q := by
  funext a
  match a with
  | ⟨0, _⟩ => rfl
  | ⟨1, _⟩ => rfl

private theorem idx75_74 (r : Fin 200000) (q : Fin 144) : idx_main_v74 (idx_main_v75 (ix2 r q)) = ix1 q := by
  funext a
  match a with
  | ⟨0, _⟩ => rfl

private theorem lidx68 (r : Fin 200000) (k : Fin 128) (l : Fin 240) : lidx_main_v68 (ix2 r k) l = ix2 r l := by
  funext a
  match a with
  | ⟨0, _⟩ => rfl
  | ⟨1, _⟩ => rfl

private theorem ridx68 (r : Fin 200000) (k : Fin 128) (l : Fin 240) : ridx_main_v68 (ix2 r k) l = ix2 l k := by
  funext a
  match a with
  | ⟨0, _⟩ => rfl
  | ⟨1, _⟩ => rfl

private theorem idx70_69 (r : Fin 200000) (k : Fin 128) : idx_main_v69 (idx_main_v70 (ix2 r k)) = ix1 k := by
  funext a
  match a with
  | ⟨0, _⟩ => rfl

/-! ## The three layers at an index -/

/-- The output layer: the result at (r, q) is Σ_k hid(r,k)·W2(k,q) + b2(q); it depends on row r of the hidden
    activations, column q of W2 and entry q of b2. -/
theorem v76_at (x0 : (⟨S50000x64, .f32⟩ : BufTy).Contents (Elt Ideal)) (x1 : (⟨S200000x112, .f32⟩ : BufTy).Contents (Elt Ideal)) (x2 : (⟨S1000000x2, .i32⟩ : BufTy).Contents (Elt Ideal)) (x3 : (⟨S1000000, .i32⟩ : BufTy).Contents (Elt Ideal)) (x4 : (⟨S1000000x16, .f32⟩ : BufTy).Contents (Elt Ideal)) (x5 : (⟨S1000000, .i32⟩ : BufTy).Contents (Elt Ideal))
    (x6 : (⟨S200000, .f32⟩ : BufTy).Contents (Elt Ideal)) (x7 : (⟨S256x64, .f32⟩ : BufTy).Contents (Elt Ideal)) (x8 : (⟨S64, .f32⟩ : BufTy).Contents (Elt Ideal)) (x9 : (⟨S256x64, .f32⟩ : BufTy).Contents (Elt Ideal)) (x10 : (⟨S64, .f32⟩ : BufTy).Contents (Elt Ideal)) (x11 : (⟨S240x128, .f32⟩ : BufTy).Contents (Elt Ideal)) (x12 : (⟨S128, .f32⟩ : BufTy).Contents (Elt Ideal)) (x13 : (⟨S128x144, .f32⟩ : BufTy).Contents (Elt Ideal)) (x14 : (⟨S144, .f32⟩ : BufTy).Contents (Elt Ideal)) (r : Fin 200000) (q : Fin 144) :
    val_main_v76 (F := Ideal) x0 x1 x2 x3 x4 x5 x6 x7 x8 x9 x10 x11 x12 x13 x14 (ix2 r q)
      = ∑ k : Fin 128, val_main_v72 (F := Ideal) x0 x1 x2 x3 x4 x5 x6 x7 x8 x9 x10 x11 x12 (ix2 r k) * x13 (ix2 k q) + x14 (ix1 q) := by
  rw [val_main_v76_apply, val_main_v73_apply, val_main_v75_apply, val_main_v74_apply]
  simp only [lidx73, ridx73, idx75_74]
  rfl

/-- The hidden layer before its activation: at (r, k) it is Σ_l h(r,l)·W1(l,k) + b1(k); it depends on row r of the
    240-column input, column k of W1 and entry k of b1. -/
theorem v71_at (x0 : (⟨S50000x64, .f32⟩ : BufTy).Contents (Elt Ideal)) (x1 : (⟨S200000x112, .f32⟩ : BufTy).Contents (Elt Ideal)) (x2 : (⟨S1000000x2, .i32⟩ : BufTy).Contents (Elt Ideal)) (x3 : (⟨S1000000, .i32⟩ : BufTy).Contents (Elt Ideal)) (x4 : (⟨S1000000x16, .f32⟩ : BufTy).Contents (Elt Ideal)) (x5 : (⟨S1000000, .i32⟩ : BufTy).Contents (Elt Ideal))
    (x6 : (⟨S200000, .f32⟩ : BufTy).Contents (Elt Ideal)) (x7 : (⟨S256x64, .f32⟩ : BufTy).Contents (Elt Ideal)) (x8 : (⟨S64, .f32⟩ : BufTy).Contents (Elt Ideal)) (x9 : (⟨S256x64, .f32⟩ : BufTy).Contents (Elt Ideal)) (x10 : (⟨S64, .f32⟩ : BufTy).Contents (Elt Ideal)) (x11 : (⟨S240x128, .f32⟩ : BufTy).Contents (Elt Ideal)) (x12 : (⟨S128, .f32⟩ : BufTy).Contents (Elt Ideal)) (r : Fin 200000) (k : Fin 128) :
    val_main_v71 (F := Ideal) x0 x1 x2 x3 x4 x5 x6 x7 x8 x9 x10 x11 x12 (ix2 r k)
      = ∑ l : Fin 240, val_main_v67 (F := Ideal) x0 x1 x2 x3 x4 x5 x6 x7 x8 x9 x10 (ix2 r l) * x11 (ix2 l k) + x12 (ix1 k) := by
  rw [val_main_v71_apply, val_main_v68_apply, val_main_v70_apply, val_main_v69_apply]
  simp only [lidx68, ridx68, idx70_69]
  rfl

/-- The activation: x · (1 / (1 + e^(−x))) is x · sigmoid(x), because the sigmoid over the extended reals is by
    definition the quotient 1 / (1 + e^(−x)) and the f32 word 0x3F800000 is the number one. -/
theorem v72_at (x0 : (⟨S50000x64, .f32⟩ : BufTy).Contents (Elt Ideal)) (x1 : (⟨S200000x112, .f32⟩ : BufTy).Contents (Elt Ideal)) (x2 : (⟨S1000000x2, .i32⟩ : BufTy).Contents (Elt Ideal)) (x3 : (⟨S1000000, .i32⟩ : BufTy).Contents (Elt Ideal)) (x4 : (⟨S1000000x16, .f32⟩ : BufTy).Contents (Elt Ideal)) (x5 : (⟨S1000000, .i32⟩ : BufTy).Contents (Elt Ideal))
    (x6 : (⟨S200000, .f32⟩ : BufTy).Contents (Elt Ideal)) (x7 : (⟨S256x64, .f32⟩ : BufTy).Contents (Elt Ideal)) (x8 : (⟨S64, .f32⟩ : BufTy).Contents (Elt Ideal)) (x9 : (⟨S256x64, .f32⟩ : BufTy).Contents (Elt Ideal)) (x10 : (⟨S64, .f32⟩ : BufTy).Contents (Elt Ideal)) (x11 : (⟨S240x128, .f32⟩ : BufTy).Contents (Elt Ideal)) (x12 : (⟨S128, .f32⟩ : BufTy).Contents (Elt Ideal)) (r : Fin 200000) (k : Fin 128) :
    val_main_v72 (F := Ideal) x0 x1 x2 x3 x4 x5 x6 x7 x8 x9 x10 x11 x12 (ix2 r k)
      = Cert.Spec.silu (val_main_v71 (F := Ideal) x0 x1 x2 x3 x4 x5 x6 x7 x8 x9 x10 x11 x12 (ix2 r k)) := by
  rw [val_main_v72_apply, val_main_call1_v5_apply, val_main_call1_v4_apply, val_main_call1_cst_0_apply,
    val_main_call1_v3_apply, val_main_call1_v2_apply, val_main_call1_cst_apply, val_main_call1_v1_apply,
    val_main_call1_v0_apply]
  generalize val_main_v71 (F := Ideal) x0 x1 x2 x3 x4 x5 x6 x7 x8 x9 x10 x11 x12 (ix2 r k) = x
  show x * Ideal.div (Ideal.ofBits .f32 0x3F800000#32) (Ideal.ofBits .f32 0x3F800000#32 + Ideal.exp (-x))
    = x * Ideal.div 1 (1 + Ideal.exp (-x))
  rw [Ideal.ofBits_one_f32]

/-! ## The whole array -/

/-- Index by index: the output layer over the activation over the hidden layer, whose input row is the
    specification's input row by the three-pieces-against-two lemma. The two halves of the scattered sums enter as
    two arbitrary 200000 × 64 arrays. -/
theorem edge_eq (x0 : (⟨S50000x64, .f32⟩ : BufTy).Contents (Elt Ideal)) (x1 : (⟨S200000x112, .f32⟩ : BufTy).Contents (Elt Ideal)) (x2 : (⟨S1000000x2, .i32⟩ : BufTy).Contents (Elt Ideal)) (x3 : (⟨S1000000, .i32⟩ : BufTy).Contents (Elt Ideal)) (x4 : (⟨S1000000x16, .f32⟩ : BufTy).Contents (Elt Ideal)) (x5 : (⟨S1000000, .i32⟩ : BufTy).Contents (Elt Ideal))
    (x6 : (⟨S200000, .f32⟩ : BufTy).Contents (Elt Ideal)) (x7 : (⟨S256x64, .f32⟩ : BufTy).Contents (Elt Ideal)) (x8 : (⟨S64, .f32⟩ : BufTy).Contents (Elt Ideal)) (x9 : (⟨S256x64, .f32⟩ : BufTy).Contents (Elt Ideal)) (x10 : (⟨S64, .f32⟩ : BufTy).Contents (Elt Ideal))
    (x11 : (⟨S240x128, .f32⟩ : BufTy).Contents (Elt Ideal)) (x12 : (⟨S128, .f32⟩ : BufTy).Contents (Elt Ideal)) (x13 : (⟨S128x144, .f32⟩ : BufTy).Contents (Elt Ideal)) (x14 : (⟨S144, .f32⟩ : BufTy).Contents (Elt Ideal))
    (hP : Shape.Concatenates [S200000x64, S200000x64] ⟨2, ![200000, 128]⟩ 1) :
    val_main_v76 (F := Ideal) x0 x1 x2 x3 x4 x5 x6 x7 x8 x9 x10 x11 x12 x13 x14
      = Cert.Spec.edgeOut (R := 200000)
          (concatenate ⟨2, ![200000, 128]⟩ 1 [⟨S200000x64, val_main_v64 (F := Ideal) x0 x1 x2 x3 x4 x5 x6 x7 x8 x9 x10⟩, ⟨S200000x64, val_main_v66 (F := Ideal) x0 x1 x2 x3 x4 x5 x6 x7 x8 x9 x10⟩] hP)
          x1 x11 x12 x13 x14 := by
  funext i
  obtain ⟨r, q, rfl⟩ : ∃ (r : Fin 200000) (q : Fin 144), i = ix2 r q := ⟨i 0, i 1, eq_ix2 i⟩
  rw [Cert.Spec.edgeOut_apply, v76_at]
  unfold Cert.Spec.edgeOutAt Cert.Spec.hiddenAt
  simp only [v72_at, v71_at]
  unfold val_main_v67
  generalize val_main_v64 (F := Ideal) x0 x1 x2 x3 x4 x5 x6 x7 x8 x9 x10 = a
  generalize val_main_v66 (F := Ideal) x0 x1 x2 x3 x4 x5 x6 x7 x8 x9 x10 = b
  simp only [cat3_apply a b x1 concatenates_S200000x64_S200000x64_S200000x112_S200000x240_d1 hP]

end Cert.ReferenceIdeal.Stage2

end
-- ==== Proof.Bridge.lean ====
/-
  The two programs compute one function of the arguments. The reference's gated messages and the kernel's are the
  specification's gated messages of the same gathered rows (the host gathers, the wrap of a negative index and the decay
  are the same operations in both programs); both scatter-add them with the same indices and cut the same two halves; and
  the reference's edge network on the three-way concatenation is the specification's on the two halves joined, which is
  what the second kernel call computes.
-/
import proofs.«124080_j34437047779388_1_alg».proof.Proof.KernelValue
import proofs.«124080_j34437047779388_1_alg».proof.Proof.RefRead
import proofs.«124080_j34437047779388_1_alg».proof.Proof.RefGated
import proofs.«124080_j34437047779388_1_alg».proof.Proof.RefEdge

set_option maxRecDepth 16384

noncomputable section

namespace Cert.Bridge

open Idealize.ShloMosaic
open Cert.ReferenceIdeal.ReadP

/-- The reference's three row gathers, its decay column and its two halves of the scattered sums are the kernel
    program's: the same host operations on the same arguments. -/
theorem atom0_eq (x0 : (⟨Cert.ReferenceIdeal.S50000x64, .f32⟩ : BufTy).Contents (Elt Ideal)) (x2 : (⟨Cert.ReferenceIdeal.S1000000x2, .i32⟩ : BufTy).Contents (Elt Ideal)) :
    val_main_v8 (F := Ideal) x0 x2 = Cert.KernelIdeal.HostK.atom0 (F := Ideal) x0 x2 := rfl
theorem atom1_eq (x0 : (⟨Cert.ReferenceIdeal.S50000x64, .f32⟩ : BufTy).Contents (Elt Ideal)) (x2 : (⟨Cert.ReferenceIdeal.S1000000x2, .i32⟩ : BufTy).Contents (Elt Ideal)) :
    val_main_v17 (F := Ideal) x0 x2 = Cert.KernelIdeal.HostK.atom1 (F := Ideal) x0 x2 := rfl
theorem edgeG_eq (x1 : (⟨Cert.ReferenceIdeal.S200000x112, .f32⟩ : BufTy).Contents (Elt Ideal)) (x3 : (⟨Cert.ReferenceIdeal.S1000000, .i32⟩ : BufTy).Contents (Elt Ideal)) :
    val_main_v24 (F := Ideal) x1 x3 = Cert.KernelIdeal.HostK.edgeG (F := Ideal) x1 x3 := rfl
theorem decayCol_eq (x3 : (⟨Cert.ReferenceIdeal.S1000000, .i32⟩ : BufTy).Contents (Elt Ideal)) (x6 : (⟨Cert.ReferenceIdeal.S200000, .f32⟩ : BufTy).Contents (Elt Ideal)) :
    val_main_v56 (F := Ideal) x3 x6 = Cert.KernelIdeal.HostK.decayCol (F := Ideal) x3 x6 := rfl

/-- The gated messages agree. -/
theorem messages_eq (x0 : (⟨Cert.ReferenceIdeal.S50000x64, .f32⟩ : BufTy).Contents (Elt Ideal)) (x1 : (⟨Cert.ReferenceIdeal.S200000x112, .f32⟩ : BufTy).Contents (Elt Ideal)) (x2 : (⟨Cert.ReferenceIdeal.S1000000x2, .i32⟩ : BufTy).Contents (Elt Ideal)) (x3 : (⟨Cert.ReferenceIdeal.S1000000, .i32⟩ : BufTy).Contents (Elt Ideal)) (x4 : (⟨Cert.ReferenceIdeal.S1000000x16, .f32⟩ : BufTy).Contents (Elt Ideal)) (x6 : (⟨Cert.ReferenceIdeal.S200000, .f32⟩ : BufTy).Contents (Elt Ideal)) (x7 : (⟨Cert.ReferenceIdeal.S256x64, .f32⟩ : BufTy).Contents (Elt Ideal)) (x8 : (⟨Cert.ReferenceIdeal.S64, .f32⟩ : BufTy).Contents (Elt Ideal)) (x9 : (⟨Cert.ReferenceIdeal.S256x64, .f32⟩ : BufTy).Contents (Elt Ideal)) (x10 : (⟨Cert.ReferenceIdeal.S64, .f32⟩ : BufTy).Contents (Elt Ideal)) :
    val_main_v58 (F := Ideal) x0 x1 x2 x3 x4 x6 x7 x8 x9 x10 = Cert.KernelIdeal.ValueK.messages x0 x1 x2 x3 x4 x6 x7 x8 x9 x10 := by
  rw [Cert.ReferenceIdeal.Stage1.gated_eq x0 x1 x2 x3 x4 x6 x7 x8 x9 x10
    Cert.KernelIdeal.Facts₀.concatenates_S1000000x64_S1000000x64_S1000000x128_d1 Cert.KernelIdeal.Facts₀.concatenates_S1000000x16_S1000000x1_S1000000x17_d1,
    atom0_eq, atom1_eq, edgeG_eq, decayCol_eq]
  rfl

/-- The reference's result is the kernel program's result function of the same arguments. -/
theorem result_eq (x0 : (⟨Cert.ReferenceIdeal.S50000x64, .f32⟩ : BufTy).Contents (Elt Ideal)) (x1 : (⟨Cert.ReferenceIdeal.S200000x112, .f32⟩ : BufTy).Contents (Elt Ideal)) (x2 : (⟨Cert.ReferenceIdeal.S1000000x2, .i32⟩ : BufTy).Contents (Elt Ideal)) (x3 : (⟨Cert.ReferenceIdeal.S1000000, .i32⟩ : BufTy).Contents (Elt Ideal)) (x4 : (⟨Cert.ReferenceIdeal.S1000000x16, .f32⟩ : BufTy).Contents (Elt Ideal)) (x5 : (⟨Cert.ReferenceIdeal.S1000000, .i32⟩ : BufTy).Contents (Elt Ideal)) (x6 : (⟨Cert.ReferenceIdeal.S200000, .f32⟩ : BufTy).Contents (Elt Ideal)) (x7 : (⟨Cert.ReferenceIdeal.S256x64, .f32⟩ : BufTy).Contents (Elt Ideal)) (x8 : (⟨Cert.ReferenceIdeal.S64, .f32⟩ : BufTy).Contents (Elt Ideal)) (x9 : (⟨Cert.ReferenceIdeal.S256x64, .f32⟩ : BufTy).Contents (Elt Ideal)) (x10 : (⟨Cert.ReferenceIdeal.S64, .f32⟩ : BufTy).Contents (Elt Ideal)) (x11 : (⟨Cert.ReferenceIdeal.S240x128, .f32⟩ : BufTy).Contents (Elt Ideal)) (x12 : (⟨Cert.ReferenceIdeal.S128, .f32⟩ : BufTy).Contents (Elt Ideal)) (x13 : (⟨Cert.ReferenceIdeal.S128x144, .f32⟩ : BufTy).Contents (Elt Ideal)) (x14 : (⟨Cert.ReferenceIdeal.S144, .f32⟩ : BufTy).Contents (Elt Ideal)) :
    val_main_v76 (F := Ideal) x0 x1 x2 x3 x4 x5 x6 x7 x8 x9 x10 x11 x12 x13 x14
      = Cert.KernelIdeal.ValueK.result x0 x1 x2 x3 x4 x5 x6 x7 x8 x9 x10 x11 x12 x13 x14 := by
  rw [Cert.ReferenceIdeal.Stage2.edge_eq x0 x1 x2 x3 x4 x5 x6 x7 x8 x9 x10 x11 x12 x13 x14 Cert.KernelIdeal.Facts₀.concatenates_S200000x64_S200000x64_S200000x128_d1]
  have h0 : val_main_v64 (F := Ideal) x0 x1 x2 x3 x4 x5 x6 x7 x8 x9 x10
      = Cert.KernelIdeal.HostK.half0 (F := Ideal) x5 (val_main_v58 (F := Ideal) x0 x1 x2 x3 x4 x6 x7 x8 x9 x10) := rfl
  have h1 : val_main_v66 (F := Ideal) x0 x1 x2 x3 x4 x5 x6 x7 x8 x9 x10
      = Cert.KernelIdeal.HostK.half1 (F := Ideal) x5 (val_main_v58 (F := Ideal) x0 x1 x2 x3 x4 x6 x7 x8 x9 x10) := rfl
  rw [h0, h1, messages_eq]
  rfl

end Cert.Bridge

end
-- ==== Proof.lean ====
/-
  The certificate. The kernel program is two TensorCore calls among host operations; the reference is a host program.

  Frames. The kernel programs' frames are the launch of the two regions over the host stretches, at the word level and
  at the extended reals. The reference's frame is its run with the result dropped.

  Preservation. The idealization rewrote no operation of the kernel program, so there is nothing to preserve.

  Equivalence over the extended reals. Both programs gather the same rows and compute the same distance decay on the
  host. The first call's 250 blocks of 4000 rows are the gated messages sigmoid(z·Wf + bf) · softplus(z·Ws + bs) · decay of
  the whole gathered arrays, a row of the result depending on the same row of the inputs only; a matrix product into a zero
  accumulator and the host's dot_general are one sum, the rounding to bf16 on the way in is the identity, the kernel's
  logistic is the reference's 1/(1 + e^(−x)), and the two spellings of softplus agree since nothing is unordered. Both
  programs then scatter-add the messages with the same indices and cut the same two halves. The second call's 50 blocks are
  the edge network silu(h·W1 + b1)·W2 + b2 of the whole arrays, and the reference's three-way concatenation is the kernel
  program's two-way one on the host followed by the one in the kernel. No law used needs finiteness.
-/
import proofs.«124080_j34437047779388_1_alg».proof.Defs
import proofs.«124080_j34437047779388_1_alg».proof.Proof.Gen.Kernel
import proofs.«124080_j34437047779388_1_alg».proof.Proof.Gen.KernelIdeal
import proofs.«124080_j34437047779388_1_alg».proof.Proof.Gen.ReferenceIdeal
import proofs.«124080_j34437047779388_1_alg».proof.Proof.Gen.Pre_finite_inputs
import proofs.«124080_j34437047779388_1_alg».proof.Proof.KernelFrame
import proofs.«124080_j34437047779388_1_alg».proof.Proof.KernelIdealFrame
import proofs.«124080_j34437047779388_1_alg».proof.Proof.KernelValue
import proofs.«124080_j34437047779388_1_alg».proof.Proof.RefRunS
import proofs.«124080_j34437047779388_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The reference's run, its result dropped. -/
theorem frame_reference : Cert.frame_ReferenceIdeal := fun m ρ _ =>
  (θ_run Cert.ReferenceIdeal.defs _ _).mono (fun _ h c => (h c).2) (Cert.ReferenceIdeal.RunS.run (F := Ideal) m ρ)

theorem preserves : Cert.preserves_Kernel_KernelIdeal := trivial

/-- Both programs end at the same function of arguments that agree. -/
theorem algebraic : Cert.algebraic_KernelIdeal_ReferenceIdeal := by
  intro m ρ m' ρ' _ hagree
  refine ⟨_, Cert.KernelIdeal.ValueK.run m ρ, ?_⟩
  refine (θ_run Cert.ReferenceIdeal.defs _ _).mono (fun _ h c => ⟨(h c).1.trans ?_, (h c).2⟩)
    (Cert.ReferenceIdeal.RunS.run (F := Ideal) m' ρ')
  obtain ⟨h0, h1, h2, h3, h4, h5, h6, h7, h8, h9, h10, h11, h12, h13, h14⟩ := hagree c
  rw [h0, h1, h2, h3, h4, h5, h6, h7, h8, h9, h10, h11, h12, h13, h14]
  exact Cert.Bridge.result_eq _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
